-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x8192x64 : Shape := ⟨4, ![4, 16, 8192, 64]⟩
abbrev S8192x32 : Shape := ⟨2, ![8192, 32]⟩
abbrev S8192 : Shape := ⟨1, ![8192]⟩
abbrev S_ : Shape := ⟨0, ![]⟩

class Facts : Prop where
  bcast_S_S4x16x8192x64 : S_.BroadcastsInDim S4x16x8192x64 (![] : Fin 0 → Fin S4x16x8192x64.rank)
  reducesTo_S4x16x8192x64_S_d0_1_2_3 : S4x16x8192x64.ReducesTo [0, 1, 2, 3] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  main_v17

def fn {F : FTy → Type} [FloatOps F] (main_arg0 : FVec F S4x16x8192x64 .f32) (main_arg1 : FVec F S8192x32 .f32) (main_arg2 : FVec F S8192x32 .f32) (main_arg3 : IVec S8192 32) : IVec S_ 1 :=
  let main_v0 : FVec F S4x16x8192x64 .f32 := Host.absf main_arg0
  let main_cst : FVec F S_ .f32 := constant S_ .f32 0x7F800000#32
  let main_v1 : FVec F S4x16x8192x64 .f32 := broadcastInDim S4x16x8192x64 ![] bcast_S_S4x16x8192x64 main_cst
  let main_v2 : IVec S4x16x8192x64 1 := cmpf .olt main_v0 main_v1
  let main_c : IVec S_ 1 := constantI S_ 1 1#1
  let main_v3 : IVec S_ 1 := (fun x v => Host.reduce IntOp.andi x v reducesTo_S4x16x8192x64_S_d0_1_2_3 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg3 main_v14
  let main_c_5 : IVec S_ 1 := constantI S_ 1 1#1
  fn_part1 (F := F) main_v13 main_v15 main_c_5
-- ==== Kernel.lean ====
abbrev S4x16x8192x64 : Shape := ⟨4, ![4, 16, 8192, 64]⟩
abbrev S8192x32 : Shape := ⟨2, ![8192, 32]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x4x256x64 : Shape := ⟨4, ![1, 4, 256, 64]⟩
abbrev S256x32 : Shape := ⟨2, ![256, 32]⟩
abbrev S4x256x64 : Shape := ⟨3, ![4, 256, 64]⟩
abbrev S4x256x32x2 : Shape := ⟨4, ![4, 256, 32, 2]⟩
abbrev S4x256x32x1 : Shape := ⟨4, ![4, 256, 32, 1]⟩
abbrev S4x256x32 : Shape := ⟨3, ![4, 256, 32]⟩
abbrev S1x256x32 : Shape := ⟨3, ![1, 256, 32]⟩

abbrev nBuf : Space → Nat
  | .hbm => 82
  | .vmem => 8
  | .smem => 0
  | _ => 0

abbrev bufTy : (tb : Table) → Fin (tcTables nBuf tb) → BufTy
  | .hbm, ⟨0, _⟩ => ⟨S4x16x8192x64, .f32⟩
  | .hbm, ⟨1, _⟩ => ⟨S8192x32, .f32⟩
  | .hbm, ⟨2, _⟩ => ⟨S8192x32, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S1x1, .i32⟩
  | .hbm, ⟨25, _⟩ => ⟨S8192x1, .i32⟩
  | .hbm, ⟨26, _⟩ => ⟨S8192x1, .i1⟩
  | .hbm, ⟨27, _⟩ => ⟨S8192x1, .i1⟩
  | .hbm, ⟨28, _⟩ => ⟨S_, .i1⟩
  | .hbm, ⟨29, _⟩ => ⟨S8192, .i1⟩
  | .hbm, ⟨30, _⟩ => ⟨S4x16x8192x64, .f32⟩
  | .hbm, ⟨31, _⟩ => ⟨S4x16x8192x64, .i1⟩
  | .hbm, ⟨32, _⟩ => ⟨S_, .f32⟩
  | .hbm, ⟨33, _⟩ => ⟨S4x16x8192x64, .f32⟩
  | .hbm, ⟨34, _⟩ => ⟨S4x16x8192x64, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192x32, .f32⟩
  | .hbm, ⟨54, _⟩ => ⟨S8192x32, .i1⟩
  | .hbm, ⟨55, _⟩ => ⟨S_, .f32⟩
  | .hbm, ⟨56, _⟩ => ⟨S8192x32, .f32⟩
  | .hbm, ⟨57, _⟩ => ⟨S8192x32, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S1, .i32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S1x1, .i32⟩
  | .hbm, ⟨71, _⟩ => ⟨S8192x1, .i32⟩
  | .hbm, ⟨72, _⟩ => ⟨S8192x1, .i1⟩
  | .hbm, ⟨73, _⟩ => ⟨S8192x1, .i1⟩
  | .hbm, ⟨74, _⟩ => ⟨S_, .i1⟩
  | .hbm, ⟨75, _⟩ => ⟨S8192, .i1⟩
  | .hbm, ⟨76, _⟩ => ⟨S8192x32, .f32⟩
  | .hbm, ⟨77, _⟩ => ⟨S8192x32, .i1⟩
  | .hbm, ⟨78, _⟩ => ⟨S_, .f32⟩
  | .hbm, ⟨79, _⟩ => ⟨S8192x32, .f32⟩
  | .hbm, ⟨80, _⟩ => ⟨S8192x32, .f32⟩
  | .hbm, ⟨81, _⟩ => ⟨S4x16x8192x64, .f32⟩
  | .local _ .vmem, ⟨0, _⟩ => ⟨S1x4x256x64, .f32⟩
  | .local _ .vmem, ⟨1, _⟩ => ⟨S1x4x256x64, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S1x4x256x64, .f32⟩
  | .local _ .vmem, ⟨7, _⟩ => ⟨S1x4x256x64, .f32⟩
  | _, _ => ⟨S4x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v1 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v2 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v3 : Ref sig .tc := ⟨.hbm, 80, rfl⟩
abbrev main_v4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x4x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S4x16x8192x64_2 : S8192.BroadcastsInDim S4x16x8192x64 (![2] : Fin 1 → Fin S4x16x8192x64.rank)
  bcast_S_S4x16x8192x64 : S_.BroadcastsInDim S4x16x8192x64 (![] : Fin 0 → Fin S4x16x8192x64.rank)
  bcast_S8192_S8192x32_0 : S8192.BroadcastsInDim S8192x32 (![0] : Fin 1 → Fin S8192x32.rank)
  bcast_S_S8192x32 : S_.BroadcastsInDim S8192x32 (![] : Fin 0 → Fin S8192x32.rank)
  inb_S1x4x256x64_S1x4x256x64_0_0_0_0 : ∀ a, (![0, 0, 0, 0] : Fin 4 → Nat) a + S1x4x256x64.size a ≤ S1x4x256x64.size a
  h_S1x4x256x64 : 0 < S1x4x256x64.numel
  shapeCasts_S1x4x256x64_S4x256x64 : S1x4x256x64.ShapeCasts S4x256x64
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S4x256x64_S4x256x32x2 : S4x256x64.ShapeCasts S4x256x32x2
  slices_S4x256x32x2_o0_0_0_0_S4x256x32x1 : S4x256x32x2.Slices ![0, 0, 0, 0] S4x256x32x1
  shapeCasts_S4x256x32x1_S4x256x32 : S4x256x32x1.ShapeCasts S4x256x32
  slices_S4x256x32x2_o0_0_0_1_S4x256x32x1 : S4x256x32x2.Slices ![0, 0, 0, 1] S4x256x32x1
  shapeCasts_S256x32_S1x256x32 : S256x32.ShapeCasts S1x256x32
  broadcasts_S1x256x32_S4x256x32 : S1x256x32.Broadcasts S4x256x32
  shapeCasts_S4x256x32_S4x256x32x1 : S4x256x32.ShapeCasts S4x256x32x1
  concatenates_S4x256x32x1_S4x256x32x1_S4x256x32x2_d3 : Shape.Concatenates [S4x256x32x1, S4x256x32x1] S4x256x32x2 3
  shapeCasts_S4x256x32x2_S4x256x64 : S4x256x32x2.ShapeCasts S4x256x64
  shapeCasts_S4x256x64_S1x4x256x64 : S4x256x64.ShapeCasts S1x4x256x64
  gather_S4x16x8192x64_S8192x1_S4x16x8192x64_013_2_n_n_2_1_416164_wf : GatherDims.WF S4x16x8192x64 S8192x1 S4x16x8192x64 [0, 1, 3] [2] [] [2] [] 1 ![4, 16, 1, 64]
  gather_S8192x32_S8192x1_S8192x32_1_0_n_n_0_1_132_wf : GatherDims.WF S8192x32 S8192x1 S8192x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x64.size a ≤ S4x16x8192x64.size a
  hwx0_0 : ∀ i : grid0.Coords, EltTy.bits .f32 = 32 ∨ (Rect.block (s := S4x16x8192x64) S1x4x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S8192x32.size a
  hwx0_1 : ∀ i : grid0.Coords, EltTy.bits .f32 = 32 ∨ (Rect.block (s := S8192x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S8192x32.size a
  hwx0_2 : ∀ i : grid0.Coords, EltTy.bits .f32 = 32 ∨ (Rect.block (s := S8192x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x256x64.size a ≤ S4x16x8192x64.size a
  hwx0_3 : ∀ i : grid0.Coords, EltTy.bits .f32 = 32 ∨ (Rect.block (s := S4x16x8192x64) S1x4x256x64.size (cc0_transform_3 i) (hinb0_3 i)).WholeWords (EltTy.packing .f32)

variable [Facts₀]

def gather_S4x16x8192x64_S8192x1_S4x16x8192x64_013_2_n_n_2_1_416164 : GatherDims S4x16x8192x64 S8192x1 S4x16x8192x64 where
  offsetDims := [0, 1, 3]
  collapsedSliceDims := [2]
  operandBatchingDims := []
  startIndicesBatchingDims := []
  startIndexMap := [2]
  indexVectorDim := 1
  sliceSizes := ![4, 16, 1, 64]
  wf := gather_S4x16x8192x64_S8192x1_S4x16x8192x64_013_2_n_n_2_1_416164_wf
def gather_S8192x32_S8192x1_S8192x32_1_0_n_n_0_1_132 : GatherDims S8192x32 S8192x1 S8192x32 where
  offsetDims := [1]
  collapsedSliceDims := [0]
  operandBatchingDims := []
  startIndicesBatchingDims := []
  startIndexMap := [0]
  indexVectorDim := 1
  sliceSizes := ![1, 32]
  wf := gather_S8192x32_S8192x1_S8192x32_1_0_n_n_0_1_132_wf

abbrev win0_0 : Pipeline.Window sig grid0 :=
  Pipeline.Window.ofSpec (Memref.whole main_v1) S1x4x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x8192x64 : Shape := ⟨4, ![4, 16, 8192, 64]⟩
abbrev S8192x32 : Shape := ⟨2, ![8192, 32]⟩
abbrev S8192 : Shape := ⟨1, ![8192]⟩
abbrev S4x16x8192x32x2 : Shape := ⟨5, ![4, 16, 8192, 32, 2]⟩
abbrev S4x16x8192x32x1 : Shape := ⟨5, ![4, 16, 8192, 32, 1]⟩
abbrev S4x16x8192x32 : Shape := ⟨4, ![4, 16, 8192, 32]⟩
abbrev S1x1x8192x32 : Shape := ⟨4, ![1, 1, 8192, 32]⟩
abbrev S_ : Shape := ⟨0, ![]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x16x8192x64, .f32⟩
  | .hbm, ⟨1, _⟩ => ⟨S8192x32, .f32⟩
  | .hbm, ⟨2, _⟩ => ⟨S8192x32, .f32⟩
  | .hbm, ⟨3, _⟩ => ⟨S8192, .i32⟩
  | .hbm, ⟨4, _⟩ => ⟨S4x16x8192x32x2, .f32⟩
  | .hbm, ⟨5, _⟩ => ⟨S4x16x8192x32x1, .f32⟩
  | .hbm, ⟨6, _⟩ => ⟨S4x16x8192x32, .f32⟩
  | .hbm, ⟨7, _⟩ => ⟨S4x16x8192x32x1, .f32⟩
  | .hbm, ⟨8, _⟩ => ⟨S4x16x8192x32, .f32⟩
  | .hbm, ⟨9, _⟩ => ⟨S1x1x8192x32, .f32⟩
  | .hbm, ⟨10, _⟩ => ⟨S4x16x8192x32, .f32⟩
  | .hbm, ⟨11, _⟩ => ⟨S4x16x8192x32, .f32⟩
  | .hbm, ⟨12, _⟩ => ⟨S1x1x8192x32, .f32⟩
  | .hbm, ⟨13, _⟩ => ⟨S4x16x8192x32, .f32⟩
  | .hbm, ⟨14, _⟩ => ⟨S4x16x8192x32, .f32⟩
  | .hbm, ⟨15, _⟩ => ⟨S4x16x8192x32, .f32⟩
  | .hbm, ⟨16, _⟩ => ⟨S1x1x8192x32, .f32⟩
  | .hbm, ⟨17, _⟩ => ⟨S4x16x8192x32, .f32⟩
  | .hbm, ⟨18, _⟩ => ⟨S4x16x8192x32, .f32⟩
  | .hbm, ⟨19, _⟩ => ⟨S1x1x8192x32, .f32⟩
  | .hbm, ⟨20, _⟩ => ⟨S4x16x8192x32, .f32⟩
  | .hbm, ⟨21, _⟩ => ⟨S4x16x8192x32, .f32⟩
  | .hbm, ⟨22, _⟩ => ⟨S4x16x8192x32, .f32⟩
  | .hbm, ⟨23, _⟩ => ⟨S4x16x8192x32x1, .f32⟩
  | .hbm, ⟨24, _⟩ => ⟨S4x16x8192x32x1, .f32⟩
  | .hbm, ⟨25, _⟩ => ⟨S4x16x8192x32x2, .f32⟩
  | .hbm, ⟨26, _⟩ => ⟨S4x16x8192x64, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S4x16x8192x64, .f32⟩
  | _, _ => ⟨S4x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]

class Facts₀ : Prop where
  shapeCasts_S4x16x8192x64_S4x16x8192x32x2 : S4x16x8192x64.ShapeCasts S4x16x8192x32x2
  slices_S4x16x8192x32x2_S4x16x8192x32x1_0_0_0_0_0 : S4x16x8192x32x2.Slices ![0, 0, 0, 0, 0] S4x16x8192x32x1
  shapeCasts_S4x16x8192x32x1_S4x16x8192x32 : S4x16x8192x32x1.ShapeCasts S4x16x8192x32
  slices_S4x16x8192x32x2_S4x16x8192x32x1_0_0_0_0_1 : S4x16x8192x32x2.Slices ![0, 0, 0, 0, 1] S4x16x8192x32x1
  bcast_S8192x32_S1x1x8192x32_2_3 : S8192x32.BroadcastsInDim S1x1x8192x32 (![2, 3] : Fin 2 → Fin S1x1x8192x32.rank)
  bcast_S1x1x8192x32_S4x16x8192x32_0_1_2_3 : S1x1x8192x32.BroadcastsInDim S4x16x8192x32 (![0, 1, 2, 3] : Fin 4 → Fin S4x16x8192x32.rank)
  bcast_S4x16x8192x32_S4x16x8192x32x1_0_1_2_3 : S4x16x8192x32.BroadcastsInDim S4x16x8192x32x1 (![0, 1, 2, 3] : Fin 4 → Fin S4x16x8192x32x1.rank)
  concatenates_S4x16x8192x32x1_S4x16x8192x32x1_S4x16x8192x32x2_d4 : Shape.Concatenates [S4x16x8192x32x1, S4x16x8192x32x1] S4x16x8192x32x2 4
  shapeCasts_S4x16x8192x32x2_S4x16x8192x64 : S4x16x8192x32x2.ShapeCasts S4x16x8192x64
  bcast_S_S8192 : S_.BroadcastsInDim S8192 (![] : Fin 0 → Fin S8192.rank)
  bcast_S8192_S8192x1_0 : S8192.BroadcastsInDim S8192x1 (![0] : Fin 1 → Fin S8192x1.rank)
  gather_S4x16x8192x64_S8192x1_S4x16x8192x64_013_2_n_n_2_1_416164_wf : GatherDims.WF S4x16x8192x64 S8192x1 S4x16x8192x64 [0, 1, 3] [2] [] [2] [] 1 ![4, 16, 1, 64]

variable [Facts₀]

def gather_S4x16x8192x64_S8192x1_S4x16x8192x64_013_2_n_n_2_1_416164 : GatherDims S4x16x8192x64 S8192x1 S4x16x8192x64 where
  offsetDims := [0, 1, 3]
  collapsedSliceDims := [2]
  operandBatchingDims := []
  startIndicesBatchingDims := []
  startIndexMap := [2]
  indexVectorDim := 1
  sliceSizes := ![4, 16, 1, 64]
  wf := gather_S4x16x8192x64_S8192x1_S4x16x8192x64_013_2_n_n_2_1_416164_wf

class Facts : Prop extends Facts₀ where

variable [Facts]
-- ==== Proof.LibRowOps.lean ====
/-
  The host's accumulating scatter and its gather, read at an element, for the dimension numbers an indexed row
  update and an indexed row read lower to (one index word per row, the index vector on axis 1).

  Scatter, operand [N, W], indices [E, 1], updates [E, W] (or operand [N], updates [E]): update row e lands on the
  operand row its index word names, the word read signed and not clamped, so element (i, j) of the result is the
  operand's plus the sum over the rows e whose word is i of the update's (e, j); a row whose word is negative or
  at least N lands nowhere.

  Gather, operand [N, W], start indices [E, 1], result [E, W] (or operand [N], result [E]): result row e is the
  operand row its index word names, the word read signed and clamped into [0, N − 1].

  General lemmas over any sizes; they import no program.
-/
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

/-! ## The host's accumulating scatter at the extended reals -/

/-- The host's accumulating scatter at the extended reals is the exact sum, for any dimension numbers. -/
theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-! ## Where an update lands -/

/-- An update lands at operand index i exactly when, on every operand axis, its start plus its window coordinate is
    i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

/-! ## A row scatter -/

/-- The row-scatter's dimension numbers over any well-formedness proof. -/
abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

/-- The start on the row axis is update row e's index word, read signed … -/
theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

/-- … the start on the column axis is 0 … -/
theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

/-- … the window coordinate on the row axis is 0 … -/
theorem rows_window_0 (e : Fin E) (j : Fin W) : (rowsScatter N E W wf).window (ix2 e j) 0 = 0 := by
  unfold ScatterDims.window
  rw [dif_neg (by simp [ScatterDims.sKept, Shape.kept, List.mem_filter])]

/-- … and on the column axis it is the update's column. -/
theorem rows_window_1 (e : Fin E) (j : Fin W) : (rowsScatter N E W wf).window (ix2 e j) 1 = j.val := by
  unfold ScatterDims.window
  rw [dif_pos (by simp [ScatterDims.sKept, Shape.kept, List.mem_filter])]
  rfl

/-- An update element (e, j') of a row scatter lands at (i, j) exactly when row e's index word, read signed, is i and
    the columns agree. -/
theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

/-- The sum of the updates landing at (i, j), re-indexed by the update's row. -/
theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

/-- A row-scatter's dimension numbers: operand [N, W], indices [E, 1], updates [E, W]. Element (i, j) of the
    accumulating scatter is the operand's plus the sum, over the update rows e whose index word read signed is i,
    of the update's (e, j); a row whose word is negative or at least N lands nowhere. -/
theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

/-! ## A flat scatter -/

/-- The flat scatter's dimension numbers over any well-formedness proof. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E : Nat} (wf : ScatterDims.WF ⟨1, ![N]⟩ ⟨2, ![E, 1]⟩ ⟨1, ![E]⟩ [] [0] [0] 1)

/-- The start on the one operand axis is update e's index word, read signed … -/
theorem vec_start (idx : IVec ⟨2, ![E, 1]⟩ 32) (e : Fin E) :
    (vecScatter N E wf).start (ix1 e) idx 0 = (idx (ix2 e 0)).toInt := by
  unfold ScatterDims.start
  rw [dif_pos (show (0 : Fin (⟨1, ![N]⟩ : Shape).rank) ∈ (vecScatter N E wf).scatterDimsToOperandDims from List.mem_singleton.mpr rfl)]
  congr 2
  funext b; refine Fin.ext ?_
  match b with
  | ⟨0, _⟩ => rfl
  | ⟨1, _⟩ => rfl

/-- … and there is no window coordinate. -/
theorem vec_window (e : Fin E) : (vecScatter N E wf).window (ix1 e) 0 = 0 := by
  unfold ScatterDims.window
  rw [dif_neg (by simp [ScatterDims.sKept, Shape.kept, List.mem_filter])]

/-- Update e of a flat scatter lands at i exactly when its index word, read signed, is i. -/
theorem vec_lands (idx : IVec ⟨2, ![E, 1]⟩ 32) (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h 0
    rw [vec_start, vec_window] at h0
    change (idx (ix2 e 0)).toInt + ((0 : ℕ) : ℤ) = (i.val : ℤ) at h0
    simpa using h0
  · intro h0 a
    obtain rfl : a = 0 := Subsingleton.elim _ _
    rw [vec_start, vec_window]
    show (idx (ix2 e 0)).toInt + ((0 : ℕ) : ℤ) = (i.val : ℤ)
    simpa using h0

/-- The sum of the updates landing at i, re-indexed by the update's position. -/
theorem vec_sum (idx : IVec ⟨2, ![E, 1]⟩ 32) (upd : (⟨1, ![E]⟩ : Shape).Idx → EReal) (i : Fin N) :
    ∑ u ∈ Finset.univ.filter (fun u => (vecScatter N E wf).resultIdx? u idx = some (ix1 i)), upd u
      = ∑ e : Fin E, (if (idx (ix2 e 0)).toInt = (i.val : ℤ) then upd (ix1 e) else 0) := by
  rw [Finset.sum_filter, ← Equiv.sum_comp (idxEquiv1 (n := E)).symm]
  refine Finset.sum_congr rfl fun e _ => ?_
  show (if (vecScatter N E wf).resultIdx? (ix1 e) idx = some (ix1 i) then upd (ix1 e) else 0) = _
  simp only [vec_lands]

/-- A flat scatter's dimension numbers: operand [N], indices [E, 1], updates [E]. Element i of the accumulating
    scatter is the operand's plus the sum of the updates e whose index word read signed is i; an update whose word
    is negative or at least N lands nowhere. -/
theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [← vec_sum wf' idx upd i]

end

/-! ## A row gather and a flat gather -/

/-- The row an index word reads on an axis of extent N: the word read signed, clamped into [0, N − 1]. -/
def clampRow (N : Nat) (hN : 0 < N) (v : BitVec 32) : Fin N := ⟨min v.toInt.toNat (N - 1), by omega⟩

/-- The row-gather's dimension numbers over any well-formedness proof. -/
abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section
variable {N E W : Nat} (wf : GatherDims.WF ⟨2, ![N, W]⟩ ⟨2, ![E, 1]⟩ ⟨2, ![E, W]⟩ [1] [0] [] [0] [] 1 ![1, W])

/-- Result element (e, j) of a row gather reads the operand at (row e's index word clamped, j). -/
theorem rows_operandIdx (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

end

/-- A row-gather's dimension numbers: operand [N, W], start indices [E, 1], result [E, W]. Result element (e, j) is
    the operand's at (row e's index word read signed and clamped into [0, N − 1], j). -/
theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  unfold Host.gather
  rw [← rows_operandIdx wf' hN idx e j]

/-- The flat gather's dimension numbers over any well-formedness proof. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element e of a flat gather reads the operand at e's index word clamped. -/
theorem vec_operandIdx {N E : Nat} (wf : GatherDims.WF ⟨1, ![N]⟩ ⟨2, ![E, 1]⟩ ⟨1, ![E]⟩ [] [0] [] [0] [] 1 ![1]) (hN : 0 < N)
    (idx : IVec ⟨2, ![E, 1]⟩ 32) (e : Fin E) :
    (vecGather N E wf).operandIdx (ix1 e) idx = ix1 (clampRow N hN (idx (ix2 e 0))) := by
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin (⟨1, ![N]⟩ : Shape).rank) ∈ (vecGather N E wf).startIndexMap from List.mem_singleton.mpr rfl)]
  have hsi : (vecGather N E wf).siIdx (ix1 e) ⟨List.idxOf (0 : Fin (⟨1, ![N]⟩ : Shape).rank) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A flat gather's dimension numbers: operand [N], start indices [E, 1], result [E]. Result element e is the
    operand's at e's index word read signed and clamped into [0, N − 1]. -/
theorem gather_vec_apply {α : Type} {N E : Nat} (hN : 0 < N) (d : GatherDims ⟨1, ![N]⟩ ⟨2, ![E, 1]⟩ ⟨1, ![E]⟩)
    (h : d.offsetDims = []) (h' : d.collapsedSliceDims = [0]) (hb : d.operandBatchingDims = [])
    (hb' : d.startIndicesBatchingDims = []) (hm : d.startIndexMap = [0]) (hv : d.indexVectorDim = 1)
    (hs : d.sliceSizes = ![1])
    (a : (⟨1, ![N]⟩ : Shape).Idx → α) (idx : IVec ⟨2, ![E, 1]⟩ 32) (e : Fin E) :
    Host.gather d a idx (ix1 e) = a (ix1 (clampRow N hN (idx (ix2 e 0)))) := by
  obtain ⟨od, cd, ob, sb, sm, iv, ss, wf'⟩ := d
  dsimp only at h h' hb hb' hm hv hs
  subst h h' hb hb' hm hv hs
  unfold Host.gather
  rw [← vec_operandIdx wf' hN idx e]

end Idealize.ShloMosaic.RowOps

end
-- ==== Proof.Spec.lean ====
/-
  The mathematics both programs compute, stated once and over no program.

  A row of 64 lanes is 32 pairs; lane 2k + e is member e of pair k. The rotation of pair k of row (b, h, r) of x by
  the angle whose cosine and sine sit at (r, k) of the two tables sends (u, v) to (u·cos − v·sin, u·sin + v·cos); the
  row r is the same for x and for the tables. Output row j is the rotated row whose number position word j names.

  How a position word names a row. Both programs first add 8192 to a negative word and then read the row at the
  word taken signed and clamped into [0, 8191]. The kernel clips the word into [0, 8191] before that, the reference
  does not: a word in [−8191, −1] names row 0 for the kernel and row word + 8192 for the reference, and every other
  word names the same row for both. Under the precondition every word is nonnegative, where the two agree.
-/
import Idealize.ShloMosaic.Lib.ValueIdx
import Idealize.ShloMosaic.PureOps.Ideal
import proofs.«416574_j2413771620710_4_alg».proof.Proof.LibRowOps

noncomputable section

namespace Cert.Rope

open Idealize.ShloMosaic Idealize.ShloMosaic.ValueIdx Idealize.ShloMosaic.RowOps

/-- The shape of x and of the result, of the two tables, and of the positions. -/
abbrev SX : Shape := ⟨4, ![4, 16, 8192, 64]⟩
abbrev ST : Shape := ⟨2, ![8192, 32]⟩
abbrev SP : Shape := ⟨1, ![8192]⟩

/-- Lane 2k + e: member e of pair k. -/
def lane (k : Fin 32) (e : Fin 2) : Fin 64 := ⟨2 * k.val + e.val, by omega⟩
/-- The pair a lane belongs to, and which member of it the lane is. -/
def pairOf (d : Fin 64) : Fin 32 := ⟨d.val / 2, by omega⟩
def memberOf (d : Fin 64) : Fin 2 := ⟨d.val % 2, by omega⟩

theorem lane_pairOf_memberOf (d : Fin 64) : lane (pairOf d) (memberOf d) = d := by
  apply Fin.ext
  show 2 * (d.val / 2) + d.val % 2 = d.val
  omega

theorem pairOf_lane (k : Fin 32) (e : Fin 2) : pairOf (lane k e) = k := by
  apply Fin.ext
  show (2 * k.val + e.val) / 2 = k.val
  omega

theorem memberOf_lane (k : Fin 32) (e : Fin 2) : memberOf (lane k e) = e := by
  apply Fin.ext
  show (2 * k.val + e.val) % 2 = e.val
  omega

/-- Member e of the rotated pair k of row (b, h, r): the pair (u, v) = (x[2k], x[2k+1]) of that row goes to
    (u·cos − v·sin, u·sin + v·cos), cos and sin read at (r, k). -/
def rot (x : SX.Idx → EReal) (cs sn : ST.Idx → EReal) (b : Fin 4) (h : Fin 16) (r : Fin 8192) (k : Fin 32) (e : Fin 2) : EReal :=
  if e.val = 0 then x (ix4 b h r (lane k 0)) * cs (ix2 r k) - x (ix4 b h r (lane k 1)) * sn (ix2 r k)
  else x (ix4 b h r (lane k 0)) * sn (ix2 r k) + x (ix4 b h r (lane k 1)) * cs (ix2 r k)

/-- The whole rotated array: every row rotated by its own row of the tables. -/
def rotAll (x : SX.Idx → EReal) (cs sn : ST.Idx → EReal) : SX.Idx → EReal :=
  fun i => rot x cs sn (i 0) (i 1) (i 2) (pairOf (i 3)) (memberOf (i 3))

/-- The row a word names on an axis of 8192 rows: the word read signed, clamped into [0, 8191]. -/
def rowOf (p : BitVec 32) : Fin 8192 := clampRow 8192 (by decide) p

/-- A negative word moved up by 8192, any other word kept. -/
def wrapWord (p : BitVec 32) : BitVec 32 := Scalar.select (IntOp.cmpi .slt p 0#32) (IntOp.addi p 8192#32) p

/-- The word clipped into [0, 8191]: the larger of 0 and the word, then the smaller of 8191 and that. -/
def clipWord (p : BitVec 32) : BitVec 32 := IntOp.minsi 8191#32 (IntOp.maxsi 0#32 p)

/-- The result: output row j is the rotated row that position word j names, the word wrapped and then clamped. -/
def G (x : SX.Idx → EReal) (cs sn : ST.Idx → EReal) (tp : SP.Idx → BitVec 32) : SX.Idx → EReal :=
  fun i => rot x cs sn (i 0) (i 1) (rowOf (wrapWord (tp (ix1 (i 2))))) (pairOf (i 3)) (memberOf (i 3))

/-- The same with every word clipped first: what the kernel computes whatever the words are. -/
def Gclip (x : SX.Idx → EReal) (cs sn : ST.Idx → EReal) (tp : SP.Idx → BitVec 32) : SX.Idx → EReal :=
  fun i => rot x cs sn (i 0) (i 1) (rowOf (wrapWord (clipWord (tp (ix1 (i 2)))))) (pairOf (i 3)) (memberOf (i 3))

end Cert.Rope

end
-- ==== Proof.KPay.lean ====
/-
  What one grid point stores, read at a lane.

  The body loads a block of 4 heads × 256 rows × 64 lanes of the gathered x and the matching 256 × 32 blocks of the
  gathered cosine and sine tables. It views each row as 32 pairs (a cast [4,256,64] → [4,256,32,2]), takes the first
  and the second members (two unit slices of the last axis), multiplies them by the tables broadcast over the heads,
  forms u·cos − v·sin and u·sin + v·cos, joins the two along a new last axis and casts back to 64 lanes. So the stored
  value at head h, row s, lane 2k + e is member e of the rotation of pair k of that row by the tables' entry (s, k).
-/
import proofs.«416574_j2413771620710_4_alg».proof.Proof.Gen.KernelIdeal.Skeleton
import proofs.«416574_j2413771620710_4_alg».proof.Proof.Spec
import Idealize.ShloMosaic.Lib.Pipeline.Value
import Idealize.ShloMosaic.Lib.ValueIdx
import Idealize.ShloMosaic.Lib.ValueLayout

noncomputable section

namespace Cert.Rope.KPay

open Idealize.ShloMosaic Idealize.ShloMosaic.ValueIdx Cert.KernelIdeal Cert.KernelIdeal.Gen Cert.Rope

/-! ## The layout operations of the body, each read at coordinates -/

section Layout
variable {α : Type}

/-- Rows of 64 lanes viewed as 32 pairs: entry (h, s, k, e) is lane 2k + e of row (h, s). -/
theorem pairs_apply (v : S4x256x64.Idx → α) (hc : S4x256x64.ShapeCasts S4x256x32x2) (hh : Fin 4) (s : Fin 256) (k : Fin 32)
    (e : Fin 2) : shapeCast S4x256x32x2 v hc (ix4 hh s k e) = v (ix3 hh s (lane k e)) :=
  shapeCast_apply v hc _ _ (by
    rw [Shape.rowMajor_val_three, Shape.rowMajor_val_four]
    show (hh.val * 256 + s.val) * 64 + (2 * k.val + e.val) = ((hh.val * 256 + s.val) * 32 + k.val) * 2 + e.val
    omega)

/-- Pairs laid back out as 64 lanes: lane 2k + e of row (h, s) is entry (h, s, k, e). -/
theorem lanes_apply (v : S4x256x32x2.Idx → α) (hc : S4x256x32x2.ShapeCasts S4x256x64) (hh : Fin 4) (s : Fin 256) (k : Fin 32)
    (e : Fin 2) : shapeCast S4x256x64 v hc (ix3 hh s (lane k e)) = v (ix4 hh s k e) :=
  shapeCast_apply v hc _ _ (by
    rw [Shape.rowMajor_val_three, Shape.rowMajor_val_four]
    show ((hh.val * 256 + s.val) * 32 + k.val) * 2 + e.val = (hh.val * 256 + s.val) * 64 + (2 * k.val + e.val)
    omega)

/-- A trailing unit axis dropped. -/
theorem dropLast_apply (v : S4x256x32x1.Idx → α) (hc : S4x256x32x1.ShapeCasts S4x256x32) (hh : Fin 4) (s : Fin 256) (k : Fin 32) :
    shapeCast S4x256x32 v hc (ix3 hh s k) = v (ix4 hh s k (0 : Fin 1)) :=
  shapeCast_apply v hc _ _ (by
    rw [Shape.rowMajor_val_three, Shape.rowMajor_val_four]
    show ((hh.val * 256 + s.val) * 32 + k.val) * 1 + 0 = (hh.val * 256 + s.val) * 32 + k.val
    omega)

/-- A trailing unit axis added. -/
theorem addLast_apply (v : S4x256x32.Idx → α) (hc : S4x256x32.ShapeCasts S4x256x32x1) (hh : Fin 4) (s : Fin 256) (k : Fin 32)
    (u : Fin 1) : shapeCast S4x256x32x1 v hc (ix4 hh s k u) = v (ix3 hh s k) :=
  shapeCast_apply v hc _ _ (by
    have hu : u.val = 0 := by omega
    rw [Shape.rowMajor_val_three, Shape.rowMajor_val_four]
    show (hh.val * 256 + s.val) * 32 + k.val = ((hh.val * 256 + s.val) * 32 + k.val) * 1 + u.val
    omega)

/-- The first members of the pairs: the unit slice of the last axis at offset 0. -/
theorem first_apply (v : S4x256x32x2.Idx → α) (hs : S4x256x32x2.Slices ![0, 0, 0, 0] S4x256x32x1) (hh : Fin 4) (s : Fin 256)
    (k : Fin 32) (u : Fin 1) : extractStridedSlice S4x256x32x1 ![0, 0, 0, 0] v hs (ix4 hh s k u) = v (ix4 hh s k (0 : Fin 2)) :=
  extractStridedSlice_apply _ v hs _ _ fun a => by
    have hu : u.val = 0 := by omega
    match a with
    | ⟨0, _⟩ => show hh.val = 0 + hh.val; omega
    | ⟨1, _⟩ => show s.val = 0 + s.val; omega
    | ⟨2, _⟩ => show k.val = 0 + k.val; omega
    | ⟨3, _⟩ => show 0 = 0 + u.val; omega

/-- The second members of the pairs: the unit slice of the last axis at offset 1. -/
theorem second_apply (v : S4x256x32x2.Idx → α) (hs : S4x256x32x2.Slices ![0, 0, 0, 1] S4x256x32x1) (hh : Fin 4) (s : Fin 256)
    (k : Fin 32) (u : Fin 1) : extractStridedSlice S4x256x32x1 ![0, 0, 0, 1] v hs (ix4 hh s k u) = v (ix4 hh s k (1 : Fin 2)) :=
  extractStridedSlice_apply _ v hs _ _ fun a => by
    have hu : u.val = 0 := by omega
    match a with
    | ⟨0, _⟩ => show hh.val = 0 + hh.val; omega
    | ⟨1, _⟩ => show s.val = 0 + s.val; omega
    | ⟨2, _⟩ => show k.val = 0 + k.val; omega
    | ⟨3, _⟩ => show 1 = 1 + u.val; omega

/-- A table block broadcast over the four heads. -/
theorem heads_apply (v : S1x256x32.Idx → α) (hb : S1x256x32.Broadcasts S4x256x32) (hh : Fin 4) (s : Fin 256) (k : Fin 32) :
    broadcastTo S4x256x32 v hb (ix3 hh s k) = v (ix3 (0 : Fin 1) s k) :=
  broadcastTo_apply v hb _ _ fun a => by
    match a with
    | ⟨0, _⟩ => rfl
    | ⟨1, _⟩ => rfl
    | ⟨2, _⟩ => rfl

/-- Two arrays joined along a new last axis, read at the first member … -/
theorem join_first (a b : S4x256x32x1.Idx → α) (hcat : Shape.Concatenates [S4x256x32x1, S4x256x32x1] S4x256x32x2 3)
    (hh : Fin 4) (s : Fin 256) (k : Fin 32) :
    concatenate S4x256x32x2 3 [⟨S4x256x32x1, a⟩, ⟨S4x256x32x1, b⟩] hcat (ix4 hh s k (0 : Fin 2)) = a (ix4 hh s k (0 : Fin 1)) :=
  concatenate_pair_apply_left 3 a b hcat _ rfl _ fun c => by
    match c with
    | ⟨0, _⟩ => rfl
    | ⟨1, _⟩ => rfl
    | ⟨2, _⟩ => rfl
    | ⟨3, _⟩ => rfl

/-- … and at the second. -/
theorem join_second (a b : S4x256x32x1.Idx → α) (hcat : Shape.Concatenates [S4x256x32x1, S4x256x32x1] S4x256x32x2 3)
    (hh : Fin 4) (s : Fin 256) (k : Fin 32) :
    concatenate S4x256x32x2 3 [⟨S4x256x32x1, a⟩, ⟨S4x256x32x1, b⟩] hcat (ix4 hh s k (1 : Fin 2)) = b (ix4 hh s k (0 : Fin 1)) :=
  concatenate_pair_apply_right 3 a b hcat _ rfl rfl _ (fun c hc => by
    match c with
    | ⟨0, _⟩ => rfl
    | ⟨1, _⟩ => rfl
    | ⟨2, _⟩ => rfl
    | ⟨3, _⟩ => exact absurd rfl hc) rfl

end Layout

/-! ## The two members and the table entries, as the body forms them -/

/-- Member e of pair k of row (h, s) of the loaded x block, as the body extracts it. -/
theorem member_first (x0 : Vec Ideal S1x4x256x64 .f32) (hh : Fin 4) (s : Fin 256) (k : Fin 32) :
    shapeCast S4x256x32 (extractStridedSlice S4x256x32x1 ![0, 0, 0, 0]
      (shapeCast S4x256x32x2 (shapeCast S4x256x64 x0 shapeCasts_S1x4x256x64_S4x256x64) shapeCasts_S4x256x64_S4x256x32x2)
      slices_S4x256x32x2_o0_0_0_0_S4x256x32x1) shapeCasts_S4x256x32x1_S4x256x32 (ix3 hh s k)
      = x0 (ix4 (0 : Fin 1) hh s (lane k 0)) := by
  refine (dropLast_apply _ _ hh s k).trans ?_
  refine (first_apply _ _ hh s k 0).trans ?_
  refine (pairs_apply _ _ hh s k 0).trans ?_
  exact shapeCast_1abc_abc_apply _ _ hh s (lane k 0)

theorem member_second (x0 : Vec Ideal S1x4x256x64 .f32) (hh : Fin 4) (s : Fin 256) (k : Fin 32) :
    shapeCast S4x256x32 (extractStridedSlice S4x256x32x1 ![0, 0, 0, 1]
      (shapeCast S4x256x32x2 (shapeCast S4x256x64 x0 shapeCasts_S1x4x256x64_S4x256x64) shapeCasts_S4x256x64_S4x256x32x2)
      slices_S4x256x32x2_o0_0_0_1_S4x256x32x1) shapeCasts_S4x256x32x1_S4x256x32 (ix3 hh s k)
      = x0 (ix4 (0 : Fin 1) hh s (lane k 1)) := by
  refine (dropLast_apply _ _ hh s k).trans ?_
  refine (second_apply _ _ hh s k 0).trans ?_
  refine (pairs_apply _ _ hh s k 1).trans ?_
  exact shapeCast_1abc_abc_apply _ _ hh s (lane k 1)

/-- Entry (s, k) of a loaded table block, as the body broadcasts it over the heads. -/
theorem table_entry (t0 : Vec Ideal S256x32 .f32) (hh : Fin 4) (s : Fin 256) (k : Fin 32) :
    broadcastTo S4x256x32 (shapeCast S1x256x32 (shapeCast S256x32 t0 shapeCasts_S256x32_S256x32) shapeCasts_S256x32_S1x256x32)
      broadcasts_S1x256x32_S4x256x32 (ix3 hh s k) = t0 (ix2 s k) := by
  refine (heads_apply _ _ hh s k).trans ?_
  refine (shapeCast_ab_1ab_apply _ _ 0 s k).trans ?_
  rw [shapeCast_self]

/-! ## The stored value -/

/-- The value the body stores, at head h, row s, lane 2k + e of the block: member e of the rotation of the pair
    (x0[2k], x0[2k+1]) of that row by (c0[s, k], s0[s, k]). -/
theorem pay_apply (x0 : Vec Ideal S1x4x256x64 .f32) (c0 s0 : Vec Ideal S256x32 .f32) (hh : Fin 4) (s : Fin 256) (k : Fin 32)
    (e : Fin 2) :
    k0_pay1 (F := Ideal) x0 c0 s0 (ix4 (0 : Fin 1) hh s (lane k e))
      = if e.val = 0 then x0 (ix4 (0 : Fin 1) hh s (lane k 0)) * c0 (ix2 s k) - x0 (ix4 (0 : Fin 1) hh s (lane k 1)) * s0 (ix2 s k)
        else x0 (ix4 (0 : Fin 1) hh s (lane k 0)) * s0 (ix2 s k) + x0 (ix4 (0 : Fin 1) hh s (lane k 1)) * c0 (ix2 s k) := by
  unfold k0_pay1
  refine (shapeCast_abc_1abc_apply _ _ 0 hh s (lane k e)).trans ?_
  refine (lanes_apply _ _ hh s k e).trans ?_
  match e with
  | ⟨0, _⟩ =>
    rw [if_pos rfl]
    refine (join_first _ _ _ hh s k).trans ?_
    refine (addLast_apply _ _ hh s k 0).trans ?_
    rw [subf_apply, mulf_apply, mulf_apply, member_first, member_second, table_entry, table_entry]
  | ⟨1, _⟩ =>
    rw [if_neg (show ¬ (1 : Nat) = 0 by decide)]
    refine (join_second _ _ _ hh s k).trans ?_
    refine (addLast_apply _ _ hh s k 0).trans ?_
    rw [addf_apply, mulf_apply, mulf_apply, member_first, member_second, table_entry, table_entry]

end Cert.Rope.KPay

end
-- ==== Proof.KFinal.lean ====
/-
  From the blocks to the array.

  The grid has 4 × 4 × 32 points; point t = (b·4 + q)·32 + u handles batch b, the four heads 4q … 4q + 3 and the rows
  256u … 256u + 255. It reads that block of the gathered x, rows 256u … of the two gathered tables, and writes the same
  block of the result. The value it writes at head h, row s, lane 2k + e is the rotation of the loaded pair by the loaded
  table entries, and a loaded entry is the array's entry at the block's offset: so the block written is the block of ONE
  whole-array function, every row of the gathered x rotated by the same row of the gathered tables. The 512 blocks tile
  the result array, which therefore ends holding that function.
-/
import proofs.«416574_j2413771620710_4_alg».proof.Proof.Gen.KernelIdeal.Value
import proofs.«416574_j2413771620710_4_alg».proof.Proof.KPay
import proofs.«416574_j2413771620710_4_alg».proof.Proof.Spec
import Idealize.ShloMosaic.Lib.Pipeline.Value
import Idealize.ShloMosaic.Lib.ValueIdx

set_option maxRecDepth 16384

noncomputable section

namespace Cert.Rope.KFinal

open Idealize.ShloMosaic Idealize.ShloMosaic.ValueIdx Idealize.ShloMosaic.TcCoe Idealize.SL.Sem
open Cert.KernelIdeal Cert.KernelIdeal.Gen Cert.Rope
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps, decided over the grid: point t is batch t / 128, head group (t / 32) mod 4, row tile t mod 32, for
    the gathered x and the result; the tables move with the row tile only. -/
theorem idx_facts : ∀ t : Fin cfg0.N,
    win0_3.index t (0 : Fin 4) = t.val / 128 ∧ win0_3.index t (1 : Fin 4) = t.val / 32 % 4
    ∧ win0_3.index t (2 : Fin 4) = t.val % 32 ∧ win0_3.index t (3 : Fin 4) = 0
    ∧ win0_0.index t (0 : Fin 4) = t.val / 128 ∧ win0_0.index t (1 : Fin 4) = t.val / 32 % 4
    ∧ win0_0.index t (2 : Fin 4) = t.val % 32 ∧ win0_0.index t (3 : Fin 4) = 0
    ∧ win0_1.index t (0 : Fin 2) = t.val % 32 ∧ win0_1.index t (1 : Fin 2) = 0
    ∧ win0_2.index t (0 : Fin 2) = t.val % 32 ∧ win0_2.index t (1 : Fin 2) = 0 :=
  (by decide +kernel : ∀ t : Fin grid0.N, _)

theorem lt_N (t : Fin cfg0.N) : t.val < 512 := t.isLt

/-- The batch, the head and the row that point t's block holds at head h and row s of the block. -/
def batchOf (t : Fin cfg0.N) : Fin 4 := ⟨t.val / 128, by have := lt_N t; omega⟩
def headOf (t : Fin cfg0.N) (hh : Fin 4) : Fin 16 := ⟨t.val / 32 % 4 * 4 + hh.val, by omega⟩
def rowAt (t : Fin cfg0.N) (s : Fin 256) : Fin 8192 := ⟨t.val % 32 * 256 + s.val, by omega⟩

/-- An entry of the loaded x block is the gathered x at the block's offset. -/
theorem xblk_apply (c : Dev nD) (t : Fin cfg0.N) (hh : Fin 4) (s : Fin 256) (l : Fin 64) :
    (iblk m c 0 t : S1x4x256x64.Idx → EReal) (ix4 (0 : Fin 1) hh s l)
      = (V m c main_v1 : S4x16x8192x64.Idx → EReal) (ix4 (batchOf t) (headOf t hh) (rowAt t s) l) := by
  obtain ⟨-, -, -, -, e0, e1, e2, e3, -⟩ := idx_facts t
  show (V m c main_v1 : S4x16x8192x64.Idx → EReal) (((cfg0.win 0).blk t).view.emb (ix4 (0 : Fin 1) hh s l)) = _
  refine congrArg _ (funext fun a => Fin.ext ?_)
  match a with
  | ⟨0, _⟩ => show win0_0.index t (0 : Fin 4) * 1 + 1 * 0 = t.val / 128; omega
  | ⟨1, _⟩ => show win0_0.index t (1 : Fin 4) * 4 + 1 * hh.val = t.val / 32 % 4 * 4 + hh.val; omega
  | ⟨2, _⟩ => show win0_0.index t (2 : Fin 4) * 256 + 1 * s.val = t.val % 32 * 256 + s.val; omega
  | ⟨3, _⟩ => show win0_0.index t (3 : Fin 4) * 64 + 1 * l.val = l.val; omega

/-- An entry of the loaded cosine block is the gathered cosine table at the block's row offset. -/
theorem cblk_apply (c : Dev nD) (t : Fin cfg0.N) (s : Fin 256) (k : Fin 32) :
    (iblk m c 1 t : S256x32.Idx → EReal) (ix2 s k) = (V m c main_v2 : S8192x32.Idx → EReal) (ix2 (rowAt t s) k) := by
  obtain ⟨-, -, -, -, -, -, -, -, e0, e1, -⟩ := idx_facts t
  show (V m c main_v2 : S8192x32.Idx → EReal) (((cfg0.win 1).blk t).view.emb (ix2 s k)) = _
  refine congrArg _ (funext fun a => Fin.ext ?_)
  match a with
  | ⟨0, _⟩ => show win0_1.index t (0 : Fin 2) * 256 + 1 * s.val = t.val % 32 * 256 + s.val; omega
  | ⟨1, _⟩ => show win0_1.index t (1 : Fin 2) * 32 + 1 * k.val = k.val; omega

/-- The same for the sine block. -/
theorem sblk_apply (c : Dev nD) (t : Fin cfg0.N) (s : Fin 256) (k : Fin 32) :
    (iblk m c 2 t : S256x32.Idx → EReal) (ix2 s k) = (V m c main_v3 : S8192x32.Idx → EReal) (ix2 (rowAt t s) k) := by
  obtain ⟨-, -, -, -, -, -, -, -, -, -, e0, e1⟩ := idx_facts t
  show (V m c main_v3 : S8192x32.Idx → EReal) (((cfg0.win 2).blk t).view.emb (ix2 s k)) = _
  refine congrArg _ (funext fun a => Fin.ext ?_)
  match a with
  | ⟨0, _⟩ => show win0_2.index t (0 : Fin 2) * 256 + 1 * s.val = t.val % 32 * 256 + s.val; omega
  | ⟨1, _⟩ => show win0_2.index t (1 : Fin 2) * 32 + 1 * k.val = k.val; omega

/-- Where entry (h, s, l) of point t's result block sits in the result array. -/
theorem oblk_emb (t : Fin cfg0.N) (hh : Fin 4) (s : Fin 256) (l : Fin 64) :
    ((cfg0.win 3).blk t).view.emb (ix4 (0 : Fin 1) hh s l) = ix4 (batchOf t) (headOf t hh) (rowAt t s) l := by
  obtain ⟨e0, e1, e2, e3, -⟩ := idx_facts t
  refine funext fun a => Fin.ext ?_
  match a with
  | ⟨0, _⟩ => show win0_3.index t (0 : Fin 4) * 1 + 1 * 0 = t.val / 128; omega
  | ⟨1, _⟩ => show win0_3.index t (1 : Fin 4) * 4 + 1 * hh.val = t.val / 32 % 4 * 4 + hh.val; omega
  | ⟨2, _⟩ => show win0_3.index t (2 : Fin 4) * 256 + 1 * s.val = t.val % 32 * 256 + s.val; omega
  | ⟨3, _⟩ => show win0_3.index t (3 : Fin 4) * 64 + 1 * l.val = l.val; omega

/-- What point t writes back is block t of the rotation of the gathered x by the gathered tables. -/
theorem flushed_eq (c : Dev nD) (t : Fin cfg0.N) :
    (dats m 0 c).flushed 3 t
      = ((cfg0.win 3).blk t).view.read (Elt Ideal) (rotAll (V m c main_v1) (V m c main_v2) (V m c main_v3)) := by
  rw [Cert.KernelIdeal.Value.flushed3]
  unfold out0_3
  rw [View.canon_unit_zero hz4]
  simp only [View.ld_unit_zero (S := S1x4x256x64) hz4, View.ld_unit_zero (S := S256x32) hz2]
  refine funext fun (y : S1x4x256x64.Idx) => ?_
  obtain ⟨u, hh, s, d, rfl⟩ : ∃ (u : Fin 1) (hh : Fin 4) (s : Fin 256) (d : Fin 64), y = ix4 u hh s d :=
    ⟨y 0, y 1, y 2, y 3, eq_ix4 y⟩
  obtain rfl : u = 0 := Subsingleton.elim _ _
  obtain ⟨k, e, rfl⟩ : ∃ (k : Fin 32) (e : Fin 2), d = lane k e := ⟨pairOf d, memberOf d, (lane_pairOf_memberOf d).symm⟩
  show k0_pay1 (F := Ideal) (iblk m c 0 t) (iblk m c 1 t) (iblk m c 2 t) (ix4 (0 : Fin 1) hh s (lane k e))
    = rotAll (V m c main_v1) (V m c main_v2) (V m c main_v3) (((cfg0.win 3).blk t).view.emb (ix4 (0 : Fin 1) hh s (lane k e)))
  refine (KPay.pay_apply (iblk m c 0 t) (iblk m c 1 t) (iblk m c 2 t) hh s k e).trans ?_
  rw [oblk_emb t hh s (lane k e)]
  show _ = rot (V m c main_v1) (V m c main_v2) (V m c main_v3) (batchOf t) (headOf t hh) (rowAt t s) (pairOf (lane k e))
    (memberOf (lane k e))
  rw [pairOf_lane, memberOf_lane]
  unfold rot
  rw [xblk_apply m c t hh s (lane k 0), xblk_apply m c t hh s (lane k 1), cblk_apply m c t s k, sblk_apply m c t s k]

/-- An index of the result array is in point t's block iff each coordinate is in the block's range on its axis. -/
theorem mem_blk (t : Fin cfg0.N) (i : S4x16x8192x64.Idx) :
    i ∈ ((cfg0.win 3).blk t).view.set ↔ ∀ a : Fin 4, win0_3.index t a * S1x4x256x64.size a ≤ (i a).val
      ∧ (i a).val < win0_3.index t a * S1x4x256x64.size a + S1x4x256x64.size a := by
  show i ∈ ((View.whole main_v4).slice (win0_3.rect t)).set ↔ _
  rw [View.set_slice_whole, Rect.mem_set_unit]
  exact Iff.rfl

/-- Every index of the result array is in some point's block: the point of its batch, head group and row tile. -/
theorem cover (i : S4x16x8192x64.Idx) : ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 8192 := (i 2).isLt
  have h3 : (i 3).val < 64 := (i 3).isLt
  have hlt : ((i 0).val * 4 + (i 1).val / 4) * 32 + (i 2).val / 256 < 512 := by omega
  refine ⟨⟨((i 0).val * 4 + (i 1).val / 4) * 32 + (i 2).val / 256, hlt⟩, flush0_3 _, ?_⟩
  obtain ⟨e0, e1, e2, e3, -⟩ := idx_facts ⟨((i 0).val * 4 + (i 1).val / 4) * 32 + (i 2).val / 256, hlt⟩
  rw [mem_blk]
  intro a
  match a with
  | ⟨0, _⟩ =>
    show win0_3.index _ (0 : Fin 4) * 1 ≤ (i 0).val ∧ (i 0).val < win0_3.index _ (0 : Fin 4) * 1 + 1
    rw [e0]; show (((i 0).val * 4 + (i 1).val / 4) * 32 + (i 2).val / 256) / 128 * 1 ≤ _ ∧ _ < (((i 0).val * 4 + (i 1).val / 4) * 32 + (i 2).val / 256) / 128 * 1 + 1
    omega
  | ⟨1, _⟩ =>
    show win0_3.index _ (1 : Fin 4) * 4 ≤ (i 1).val ∧ (i 1).val < win0_3.index _ (1 : Fin 4) * 4 + 4
    rw [e1]; show (((i 0).val * 4 + (i 1).val / 4) * 32 + (i 2).val / 256) / 32 % 4 * 4 ≤ _ ∧ _ < (((i 0).val * 4 + (i 1).val / 4) * 32 + (i 2).val / 256) / 32 % 4 * 4 + 4
    omega
  | ⟨2, _⟩ =>
    show win0_3.index _ (2 : Fin 4) * 256 ≤ (i 2).val ∧ (i 2).val < win0_3.index _ (2 : Fin 4) * 256 + 256
    rw [e2]; show (((i 0).val * 4 + (i 1).val / 4) * 32 + (i 2).val / 256) % 32 * 256 ≤ _ ∧ _ < (((i 0).val * 4 + (i 1).val / 4) * 32 + (i 2).val / 256) % 32 * 256 + 256
    omega
  | ⟨3, _⟩ =>
    show win0_3.index _ (3 : Fin 4) * 64 ≤ (i 3).val ∧ (i 3).val < win0_3.index _ (3 : Fin 4) * 64 + 64
    rw [e3]; omega

/-- The result array after the run: every row of the gathered x rotated by the same row of the gathered tables. -/
theorem final (c : Dev nD) :
    (dats m 0 c).arrAt 3 cfg0.N = rotAll (V m c main_v1) (V m c main_v2) (V m c main_v3) :=
  (dats m 0 c).arrAt_eq_of_cover 3 _ (fun t _ => flushed_eq m c t) cover

end Cert.Rope.KFinal

end
-- ==== Proof.Words.lean ====
/-
  Position words. The clipped word lies in [0, 8191], so moving negatives up by 8192 leaves it alone and the test
  "0 ≤ word ≤ 8191" holds of it; and a nonnegative word names the same row clipped or not: below 8192 the clip does
  nothing, from 8192 on the clip gives 8191, which is where the clamp of the row read puts the unclipped word.
-/
import proofs.«416574_j2413771620710_4_alg».proof.Proof.Spec
import Idealize.ShloMosaic.Lib.Affine

noncomputable section

namespace Cert.Rope

open Idealize.ShloMosaic Idealize.ShloMosaic.RowOps

/-- The three literals read signed. -/
theorem toInt_lit_0 : (0#32 : BitVec 32).toInt = 0 := by decide
theorem toInt_lit_8191 : (8191#32 : BitVec 32).toInt = 8191 := by decide

/-- The larger of 0 and a word, read signed. -/
theorem toInt_maxsi_zero (p : BitVec 32) : (IntOp.maxsi 0#32 p).toInt = max 0 p.toInt := by
  unfold IntOp.maxsi
  by_cases h : p.slt 0#32 = true
  · rw [if_pos h]
    rw [BitVec.slt_iff_toInt_lt, toInt_lit_0] at h
    rw [toInt_lit_0]; omega
  · rw [if_neg h]
    rw [BitVec.slt_iff_toInt_lt, toInt_lit_0] at h
    omega

/-- The smaller of 8191 and a word, read signed. -/
theorem toInt_minsi_8191 (q : BitVec 32) : (IntOp.minsi 8191#32 q).toInt = min 8191 q.toInt := by
  unfold IntOp.minsi
  by_cases h : (8191#32 : BitVec 32).slt q = true
  · rw [if_pos h]
    rw [BitVec.slt_iff_toInt_lt, toInt_lit_8191] at h
    rw [toInt_lit_8191]; omega
  · rw [if_neg h]
    rw [BitVec.slt_iff_toInt_lt, toInt_lit_8191] at h
    omega

/-- The clipped word read signed: the word's signed value clipped into [0, 8191]. -/
theorem toInt_clipWord (p : BitVec 32) : (clipWord p).toInt = min 8191 (max 0 p.toInt) := by
  unfold clipWord
  rw [toInt_minsi_8191, toInt_maxsi_zero]

/-- Wrapping leaves a nonnegative word as it is. -/
theorem wrapWord_of_nonneg (q : BitVec 32) (h : 0 ≤ q.toInt) : wrapWord q = q := by
  unfold wrapWord Scalar.select
  have hc : ¬ IntOp.cmpi .slt q 0#32 = 1#1 := by
    rw [IntOp.cmpi_slt, toInt_lit_0]; omega
  exact if_neg hc

/-- A clipped word is not negative: wrapping leaves it as it is. -/
theorem wrap_clip (p : BitVec 32) : wrapWord (clipWord p) = clipWord p := by
  refine wrapWord_of_nonneg _ ?_
  rw [toInt_clipWord]; omega

/-- A clipped word passes the range test 0 ≤ word ∧ word ≤ 8191. -/
theorem clip_inb (p : BitVec 32) :
    IntOp.andi (IntOp.cmpi .sge (clipWord p) 0#32) (IntOp.cmpi .sle (clipWord p) 8191#32) = 1#1 := by
  rw [IntOp.andi_eq_one, IntOp.cmpi_sge, IntOp.cmpi_sle, toInt_lit_0, toInt_lit_8191, toInt_clipWord]
  omega

/-- A nonnegative word names the same row whether it is clipped first or only wrapped. -/
theorem rowOf_clip_of_nonneg (p : BitVec 32) (h : 0 ≤ p.toInt) : rowOf (clipWord p) = rowOf (wrapWord p) := by
  rw [wrapWord_of_nonneg p h]
  apply Fin.ext
  show min (clipWord p).toInt.toNat (8192 - 1) = min p.toInt.toNat (8192 - 1)
  rw [toInt_clipWord]
  omega

end Cert.Rope

end
-- ==== Proof.LibGather4.lean ====
/-
  The host's gather along axis 2 of a rank-4 operand, read at an element: operand [B, H, N, W], start indices [E, 1],
  result [B, H, E, W], the dimension numbers an indexed read of whole rows along the third axis lowers to (offset axes
  0, 1, 3; the row axis collapsed; one index word per result row, the index vector on axis 1). Result element
  (b, h, e, w) is the operand's at (b, h, row, w), the row being word e read signed and clamped into [0, N − 1].

  A general lemma over any sizes; it imports no program.
-/
import Idealize.ShloMosaic.Lib.ValueIdx
import proofs.«416574_j2413771620710_4_alg».proof.Proof.LibRowOps

noncomputable section

namespace Idealize.ShloMosaic.RowOps

open Idealize.ShloMosaic Idealize.ShloMosaic.ValueIdx

/-- The axis-2 row gather's dimension numbers over any well-formedness proof. -/
abbrev axis2Gather (B H N E W : Nat)
    (wf : GatherDims.WF ⟨4, ![B, H, N, W]⟩ ⟨2, ![E, 1]⟩ ⟨4, ![B, H, E, W]⟩ [0, 1, 3] [2] [] [2] [] 1 ![B, H, 1, W]) :
    GatherDims ⟨4, ![B, H, N, W]⟩ ⟨2, ![E, 1]⟩ ⟨4, ![B, H, E, W]⟩ where
  offsetDims := [0, 1, 3]
  collapsedSliceDims := [2]
  operandBatchingDims := []
  startIndicesBatchingDims := []
  startIndexMap := [2]
  indexVectorDim := 1
  sliceSizes := ![B, H, 1, W]
  wf := wf

section
variable {B H N E W : Nat}
  (wf : GatherDims.WF ⟨4, ![B, H, N, W]⟩ ⟨2, ![E, 1]⟩ ⟨4, ![B, H, E, W]⟩ [0, 1, 3] [2] [] [2] [] 1 ![B, H, 1, W])

/-- An axis other than the row axis is not in the start index map: the slice starts at 0 there. -/
theorem axis2_start_off (idx : IVec ⟨2, ![E, 1]⟩ 32) (j : (⟨4, ![B, H, E, W]⟩ : Shape).Idx)
    (a : Fin (⟨4, ![B, H, N, W]⟩ : Shape).rank) (ha : a ≠ 2) : (axis2Gather B H N E W wf).start j idx a = 0 := by
  unfold GatherDims.start
  rw [dif_neg (show ¬ a ∈ (axis2Gather B H N E W wf).startIndexMap from fun h => ha (List.mem_singleton.mp h))]

/-- An axis other than the row axis is kept: neither collapsed nor batching. -/
theorem axis2_mem_sKept (a : Fin (⟨4, ![B, H, N, W]⟩ : Shape).rank) (ha : a ≠ 2) : a ∈ (axis2Gather B H N E W wf).sKept :=
  (GatherDims.mem_sKept _ _).mpr ⟨fun h => ha (List.mem_singleton.mp h), List.not_mem_nil⟩

/-- Result element (b, h, e, w) of an axis-2 row gather reads the operand at (b, h, word e clamped, w). -/
theorem axis2_operandIdx (hN : 0 < N) (idx : IVec ⟨2, ![E, 1]⟩ 32) (b : Fin B) (hh : Fin H) (e : Fin E) (w : Fin W) :
    (axis2Gather B H N E W wf).operandIdx (ix4 b hh e w) idx = ix4 b hh (clampRow N hN (idx (ix2 e 0))) w := by
  funext a
  refine Fin.ext ?_
  match a with
  | ⟨0, _⟩ =>
    show (axis2Gather B H N E W wf).start (ix4 b hh e w) idx 0 + (axis2Gather B H N E W wf).batchCoord (ix4 b hh e w) 0
      + (axis2Gather B H N E W wf).offCoord (ix4 b hh e w) 0 = b.val
    rw [GatherDims.batchCoord_eq_zero _ _ _ List.not_mem_nil, axis2_start_off wf idx _ 0 (show (0 : Fin 4) ≠ 2 by decide)]
    simp only [Nat.zero_add, Nat.add_zero]
    unfold GatherDims.offCoord
    rw [dif_pos (axis2_mem_sKept wf 0 (show (0 : Fin 4) ≠ 2 by decide))]
    rfl
  | ⟨1, _⟩ =>
    show (axis2Gather B H N E W wf).start (ix4 b hh e w) idx 1 + (axis2Gather B H N E W wf).batchCoord (ix4 b hh e w) 1
      + (axis2Gather B H N E W wf).offCoord (ix4 b hh e w) 1 = hh.val
    rw [GatherDims.batchCoord_eq_zero _ _ _ List.not_mem_nil, axis2_start_off wf idx _ 1 (show (1 : Fin 4) ≠ 2 by decide)]
    simp only [Nat.zero_add, Nat.add_zero]
    unfold GatherDims.offCoord
    rw [dif_pos (axis2_mem_sKept wf 1 (show (1 : Fin 4) ≠ 2 by decide))]
    rfl
  | ⟨2, _⟩ =>
    show (axis2Gather B H N E W wf).start (ix4 b hh e w) idx 2 + (axis2Gather B H N E W wf).batchCoord (ix4 b hh e w) 2
      + (axis2Gather B H N E W wf).offCoord (ix4 b hh e w) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin (⟨4, ![B, H, N, W]⟩ : Shape).rank) ∈ (axis2Gather B H N E W wf).startIndexMap from List.mem_singleton.mpr rfl)]
    have hsi : (axis2Gather B H N E W wf).siIdx (ix4 b hh e w)
        ⟨List.idxOf (2 : Fin (⟨4, ![B, H, N, W]⟩ : Shape).rank) (axis2Gather B H N E W wf).startIndexMap,
          List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨3, _⟩ =>
    show (axis2Gather B H N E W wf).start (ix4 b hh e w) idx 3 + (axis2Gather B H N E W wf).batchCoord (ix4 b hh e w) 3
      + (axis2Gather B H N E W wf).offCoord (ix4 b hh e w) 3 = w.val
    rw [GatherDims.batchCoord_eq_zero _ _ _ List.not_mem_nil, axis2_start_off wf idx _ 3 (show (3 : Fin 4) ≠ 2 by decide)]
    simp only [Nat.zero_add, Nat.add_zero]
    unfold GatherDims.offCoord
    rw [dif_pos (axis2_mem_sKept wf 3 (show (3 : Fin 4) ≠ 2 by decide))]
    rfl

end

/-- A gather of rows along axis 2 of a rank-4 operand: result element (b, h, e, w) is the operand's at
    (b, h, word e read signed and clamped into [0, N − 1], w). -/
theorem gather_axis2_apply {α : Type} {B H N E W : Nat} (hN : 0 < N)
    (d : GatherDims ⟨4, ![B, H, N, W]⟩ ⟨2, ![E, 1]⟩ ⟨4, ![B, H, E, W]⟩)
    (h : d.offsetDims = [0, 1, 3]) (h' : d.collapsedSliceDims = [2]) (hb : d.operandBatchingDims = [])
    (hb' : d.startIndicesBatchingDims = []) (hm : d.startIndexMap = [2]) (hv : d.indexVectorDim = 1)
    (hs : d.sliceSizes = ![B, H, 1, W])
    (a : (⟨4, ![B, H, N, W]⟩ : Shape).Idx → α) (idx : IVec ⟨2, ![E, 1]⟩ 32) (b : Fin B) (hh : Fin H) (e : Fin E) (w : Fin W) :
    Host.gather d a idx (ix4 b hh e w) = a (ix4 b hh (clampRow N hN (idx (ix2 e 0))) w) := by
  obtain ⟨od, cd, ob, sb, sm, iv, ss, wf'⟩ := d
  dsimp only at h h' hb hb' hm hv hs
  subst h h' hb hb' hm hv hs
  unfold Host.gather
  rw [← axis2_operandIdx wf' hN idx b hh e w]

end Idealize.ShloMosaic.RowOps

end
-- ==== Proof.KHost.lean ====
/-
  What the kernel region finds staged when it is entered.

  Before the region the program clips every position word into [0, 8191] and then takes rows three times at the clipped
  words: of x along its row axis, of the cosine table and of the sine table. A take moves a negative word up by 8192, tests
  0 ≤ word ≤ 8191, gathers the row the word names (read signed, clamped into [0, 8191]) and keeps the gathered value where
  the test holds, a NaN constant elsewhere. A clipped word is never negative, so the move leaves it alone, and it passes the
  test; so row j of each staged array is the row of the launched array that position word j, clipped and then wrapped, names.

  First the clip and the take as functions of any words and any array, read at an index with no program in sight; then the
  three staged arrays as those functions of the launched arrays.
-/
import proofs.«416574_j2413771620710_4_alg».proof.Proof.Gen.KernelIdeal.Frame
import proofs.«416574_j2413771620710_4_alg».proof.Proof.Spec
import proofs.«416574_j2413771620710_4_alg».proof.Proof.Words
import proofs.«416574_j2413771620710_4_alg».proof.Proof.LibGather4
import Idealize.ShloMosaic.Lib.Pipeline.Value
import Idealize.ShloMosaic.Lib.ValueIdx
import Idealize.ShloMosaic.Lib.StableHlo.Run
noncomputable section
namespace Cert.Rope.KHost
open Idealize.ShloMosaic Idealize.ShloMosaic.ValueIdx Idealize.ShloMosaic.RowOps Idealize.ShloMosaic.TcCoe Idealize.SL.Sem Cert.KernelIdeal Cert.KernelIdeal.Gen Cert.Rope
variable (m : (ℓ : Loc nD τ sig) → Buf (Elt Ideal) ℓ)

/-! ## The clip, over any words -/

/-- Every word clipped into [0, 8191], written with the program's vector operations: the smaller of 8191 and the larger of 0
    and the word, the two bounds broadcast from scalars. -/
def clipV (p : S8192.Idx → BitVec 32) : S8192.Idx → BitVec 32 :=
  minsi (broadcastInDim S8192 ![] bcast_S_S8192 (id (constantI S_ 32 8191#32)))
    (maxsi (broadcastInDim S8192 ![] bcast_S_S8192 (id (constantI S_ 32 0#32))) p)

/-- Read at a word it is the scalar clip. -/
theorem clipV_apply (p : S8192.Idx → BitVec 32) (i : S8192.Idx) : clipV p i = clipWord (p i) := rfl

/-! ## The take, over any array and any words -/

/-- The index column of a take: every negative word moved up by 8192, the words laid out as a column [8192, 1]. -/
def colOf (q : S8192.Idx → BitVec 32) : S8192x1.Idx → BitVec 32 :=
  broadcastInDim S8192x1 ![0] bcast_S8192_S8192x1_0
    (select (cmpi .slt q (broadcastInDim S8192 ![] bcast_S_S8192 (constantI S_ 32 0#32)))
      (addi q (broadcastInDim S8192 ![] bcast_S_S8192 (constantI S_ 32 8192#32))) q)

/-- Row j of the column is word j wrapped. -/
theorem colOf_apply (q : S8192.Idx → BitVec 32) (j : Fin 8192) (z : Fin 1) : colOf q (ix2 j z) = wrapWord (q (ix1 j)) := by
  unfold colOf
  refine (broadcastInDim_apply _ _ _ (ix2 j z) (ix1 j) ?_).trans rfl
  intro a
  match a with
  | ⟨0, _⟩ => rfl

/-- The range test of a take, one bit per word: 0 ≤ wrapped word and wrapped word ≤ 8191, the column's one entry per row
    folded by "and" from 1. -/
def maskOf (q : S8192.Idx → BitVec 32) : S8192.Idx → BitVec 1 :=
  Host.reduce IntOp.andi
    (andi (cmpi .sge (colOf q) (broadcastInDim S8192x1 ![] bcast_S_S8192x1 (constantI S_ 32 0#32)))
      (cmpi .sle (colOf q) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- A left fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- Where word j, wrapped, passes the range test, bit j of the mask is 1: the fold at j runs over the one entry of row j
    of the column. -/
theorem maskOf_apply (q : S8192.Idx → BitVec 32) (j : Fin 8192)
    (hq : IntOp.andi (IntOp.cmpi .sge (wrapWord (q (ix1 j))) 0#32) (IntOp.cmpi .sle (wrapWord (q (ix1 j))) 8191#32) = 1#1) :
    maskOf q (ix1 j) = 1#1 := by
  unfold maskOf
  rw [Host.reduce_eq_foldl]
  refine foldl_andi_one _ _ fun i hi => ?_
  have hd : reducesTo_S8192x1_S8192_d1.drop i = ix1 j := of_decide_eq_true (List.mem_filter.1 hi).2
  have h0 : i 0 = j := by
    have e := congrArg (fun k : S8192.Idx => (k 0).val) hd
    exact Fin.ext ((Shape.ReducesTo.drop_apply_val_of_eq reducesTo_S8192x1_S8192_d1 i 0 0).symm.trans e)
  rw [eq_ix2 i, h0]
  exact (congrArg (fun w : BitVec 32 => IntOp.andi (IntOp.cmpi .sge w 0#32) (IntOp.cmpi .sle w 8191#32)) (colOf_apply q j (i 1))).trans hq

/-- The take of rows of x: the gather along the row axis at the column, kept where the mask holds, a NaN constant elsewhere. -/
def takeX (a : S4x16x8192x64.Idx → EReal) (q : S8192.Idx → BitVec 32) : S4x16x8192x64.Idx → EReal :=
  select (broadcastInDim S4x16x8192x64 ![2] bcast_S8192_S4x16x8192x64_2 (maskOf q))
    (Host.gather gather_S4x16x8192x64_S8192x1_S4x16x8192x64_013_2_n_n_2_1_416164 a (colOf q))
    (broadcastInDim S4x16x8192x64 ![] bcast_S_S4x16x8192x64 (constant (F := Ideal) S_ .f32 0x7FC00000#32))

/-- Where word j, wrapped, passes the range test, row j of the take of x is the row of x the wrapped word names. -/
theorem takeX_apply (a : S4x16x8192x64.Idx → EReal) (q : S8192.Idx → BitVec 32) (b : Fin 4) (h : Fin 16) (j : Fin 8192) (d : Fin 64)
    (hq : IntOp.andi (IntOp.cmpi .sge (wrapWord (q (ix1 j))) 0#32) (IntOp.cmpi .sle (wrapWord (q (ix1 j))) 8191#32) = 1#1) :
    takeX a q (ix4 b h j d) = a (ix4 b h (rowOf (wrapWord (q (ix1 j)))) d) := by
  unfold takeX
  rw [select_apply]
  have hm : broadcastInDim S4x16x8192x64 ![2] bcast_S8192_S4x16x8192x64_2 (maskOf q) (ix4 b h j d) = 1#1 :=
    (broadcastInDim_apply _ _ _ (ix4 b h j d) (ix1 j) (fun a => match a with | ⟨0, _⟩ => rfl)).trans (maskOf_apply q j hq)
  rw [hm, select_one]
  refine (gather_axis2_apply (by decide) _ rfl rfl rfl rfl rfl rfl rfl a (colOf q) b h j d).trans ?_
  rw [colOf_apply]
  rfl

/-- The take of rows of a table: the row gather at the column, kept where the mask holds, a NaN constant elsewhere. -/
def takeT (a : S8192x32.Idx → EReal) (q : S8192.Idx → BitVec 32) : S8192x32.Idx → EReal :=
  select (broadcastInDim S8192x32 ![0] bcast_S8192_S8192x32_0 (maskOf q))
    (Host.gather gather_S8192x32_S8192x1_S8192x32_1_0_n_n_0_1_132 a (colOf q))
    (broadcastInDim S8192x32 ![] bcast_S_S8192x32 (constant (F := Ideal) S_ .f32 0x7FC00000#32))

/-- Where word j, wrapped, passes the range test, row j of the take of a table is the table's row the wrapped word names. -/
theorem takeT_apply (a : S8192x32.Idx → EReal) (q : S8192.Idx → BitVec 32) (j : Fin 8192) (k : Fin 32)
    (hq : IntOp.andi (IntOp.cmpi .sge (wrapWord (q (ix1 j))) 0#32) (IntOp.cmpi .sle (wrapWord (q (ix1 j))) 8191#32) = 1#1) :
    takeT a q (ix2 j k) = a (ix2 (rowOf (wrapWord (q (ix1 j)))) k) := by
  unfold takeT
  rw [select_apply]
  have hm : broadcastInDim S8192x32 ![0] bcast_S8192_S8192x32_0 (maskOf q) (ix2 j k) = 1#1 :=
    (broadcastInDim_apply _ _ _ (ix2 j k) (ix1 j) (fun a => match a with | ⟨0, _⟩ => rfl)).trans (maskOf_apply q j hq)
  rw [hm, select_one]
  refine (gather_rows_apply (by decide) _ rfl rfl rfl rfl rfl rfl rfl a (colOf q) j k).trans ?_
  rw [colOf_apply]
  rfl

/-- A clipped word passes the take's range test after the wrap, which leaves it alone. -/
theorem clip_passes (p : BitVec 32) :
    IntOp.andi (IntOp.cmpi .sge (wrapWord (clipWord p)) 0#32) (IntOp.cmpi .sle (wrapWord (clipWord p)) 8191#32) = 1#1 := by
  rw [wrap_clip]
  exact clip_inb p

/-! ## The three staged arrays

Each array is the value of the host operations that run before the region, read back through them to the launched arrays:
the clip of the position words, then the take's operations in order. With the transports between a buffer's type and its
value's type removed, that value is the take above, letter for letter. -/

set_option maxHeartbeats 2000000 in
/-- The rows of x the region finds: the take of the launched x at the clipped position words. -/
theorem V_v1 (c : Dev nD) :
    (V m c main_v1 : S4x16x8192x64.Idx → EReal)
      = takeX (m ((c : Thread nD τ).loc main_arg0)) (clipV (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [StableHlo.TRef.toBuf, StableHlo.TRef.ofBuf, cast_cast, cast_eq]
  unfold takeX maskOf colOf clipV
  rfl

set_option maxHeartbeats 2000000 in
/-- The rows of the cosine table the region finds: the take of the launched table at the clipped position words. -/
theorem V_v2 (c : Dev nD) :
    (V m c main_v2 : S8192x32.Idx → EReal)
      = takeT (m ((c : Thread nD τ).loc main_arg1)) (clipV (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [StableHlo.TRef.toBuf, StableHlo.TRef.ofBuf, cast_cast, cast_eq]
  unfold takeT maskOf colOf clipV
  rfl

set_option maxHeartbeats 2000000 in
/-- The rows of the sine table the region finds: the take of the launched table at the clipped position words. -/
theorem V_v3 (c : Dev nD) :
    (V m c main_v3 : S8192x32.Idx → EReal)
      = takeT (m ((c : Thread nD τ).loc main_arg2)) (clipV (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [StableHlo.TRef.toBuf, StableHlo.TRef.ofBuf, cast_cast, cast_eq]
  unfold takeT maskOf colOf clipV
  rfl

/-- Row j of the staged x is the row of the launched x that position word j, clipped and wrapped, names. -/
theorem xg_apply (c : Dev nD) (b : Fin 4) (h : Fin 16) (j : Fin 8192) (d : Fin 64) :
    (V m c main_v1 : S4x16x8192x64.Idx → EReal) (ix4 b h j d)
      = (m ((c : Thread nD τ).loc main_arg0) : S4x16x8192x64.Idx → EReal)
          (ix4 b h (rowOf (wrapWord (clipWord ((m ((c : Thread nD τ).loc main_arg3) : S8192.Idx → BitVec 32) (ix1 j))))) d) := by
  rw [V_v1]
  exact takeX_apply _ _ b h j d (clip_passes _)

/-- Row j of the staged cosine table is the launched table's row that position word j, clipped and wrapped, names. -/
theorem cg_apply (c : Dev nD) (j : Fin 8192) (k : Fin 32) :
    (V m c main_v2 : S8192x32.Idx → EReal) (ix2 j k)
      = (m ((c : Thread nD τ).loc main_arg1) : S8192x32.Idx → EReal)
          (ix2 (rowOf (wrapWord (clipWord ((m ((c : Thread nD τ).loc main_arg3) : S8192.Idx → BitVec 32) (ix1 j))))) k) := by
  rw [V_v2]
  exact takeT_apply _ _ j k (clip_passes _)

/-- Row j of the staged sine table is the launched table's row that position word j, clipped and wrapped, names. -/
theorem sg_apply (c : Dev nD) (j : Fin 8192) (k : Fin 32) :
    (V m c main_v3 : S8192x32.Idx → EReal) (ix2 j k)
      = (m ((c : Thread nD τ).loc main_arg2) : S8192x32.Idx → EReal)
          (ix2 (rowOf (wrapWord (clipWord ((m ((c : Thread nD τ).loc main_arg3) : S8192.Idx → BitVec 32) (ix1 j))))) k) := by
  rw [V_v3]
  exact takeT_apply _ _ j k (clip_passes _)

end Cert.Rope.KHost
end
-- ==== Proof.KValue.lean ====
/-
  The kernel's result array as a function of the four arguments.

  The result array ends holding every row of the gathered x rotated by the same row of the gathered tables, and row j of
  each gathered array is the argument's row named by position word j clipped into [0, 8191] (then wrapped and clamped,
  which change nothing of a clipped word). Rotating row j of the gathered arrays is therefore rotating that one row of x by
  that one row of the tables: the rotation and the row read commute because the rotation acts row by row. Where every
  position word is nonnegative the clipped word names the row the unclipped word names.
-/
import proofs.«416574_j2413771620710_4_alg».proof.Proof.KFinal
import proofs.«416574_j2413771620710_4_alg».proof.Proof.KHost
import proofs.«416574_j2413771620710_4_alg».proof.Proof.Words

noncomputable section

namespace Cert.Rope.KValue

open Idealize.ShloMosaic Idealize.ShloMosaic.ValueIdx Idealize.ShloMosaic.TcCoe Idealize.SL.Sem
open Cert.KernelIdeal Cert.KernelIdeal.Gen Cert.Rope

variable (m : (ℓ : Loc nD τ sig) → Buf (Elt Ideal) ℓ)

/-- Whatever the position words are, the result array is the rotation read at the rows the CLIPPED words name. -/
theorem result_clip (c : Dev nD) :
    (dats m 0 c).arrAt 3 cfg0.N
      = Gclip (m ((c : Thread nD τ).loc main_arg0)) (m ((c : Thread nD τ).loc main_arg1)) (m ((c : Thread nD τ).loc main_arg2))
          (m ((c : Thread nD τ).loc main_arg3)) := by
  rw [KFinal.final]
  refine funext fun (i : S4x16x8192x64.Idx) => ?_
  obtain ⟨b, h, j, d, rfl⟩ : ∃ (b : Fin 4) (h : Fin 16) (j : Fin 8192) (d : Fin 64), i = ix4 b h j d :=
    ⟨i 0, i 1, i 2, i 3, eq_ix4 i⟩
  show rot (V m c main_v1) (V m c main_v2) (V m c main_v3) b h j (pairOf d) (memberOf d)
    = rot (m ((c : Thread nD τ).loc main_arg0)) (m ((c : Thread nD τ).loc main_arg1)) (m ((c : Thread nD τ).loc main_arg2))
        b h (rowOf (wrapWord (clipWord ((m ((c : Thread nD τ).loc main_arg3) : S8192.Idx → BitVec 32) (ix1 j)))))
        (pairOf d) (memberOf d)
  unfold rot
  rw [KHost.xg_apply m c b h j (lane (pairOf d) 0), KHost.xg_apply m c b h j (lane (pairOf d) 1),
    KHost.cg_apply m c j (pairOf d), KHost.sg_apply m c j (pairOf d)]

/-- Where every position word is nonnegative, clipping first changes no row. -/
theorem Gclip_eq_G (x : SX.Idx → EReal) (cs sn : ST.Idx → EReal) (tp : SP.Idx → BitVec 32)
    (h : ∀ j : Fin 8192, 0 ≤ (tp (ix1 j)).toInt) : Gclip x cs sn tp = G x cs sn tp := by
  refine funext fun (i : SX.Idx) => ?_
  obtain ⟨b, hh, j, d, rfl⟩ : ∃ (b : Fin 4) (hh : Fin 16) (j : Fin 8192) (d : Fin 64), i = ix4 b hh j d :=
    ⟨i 0, i 1, i 2, i 3, eq_ix4 i⟩
  show rot x cs sn b hh (rowOf (wrapWord (clipWord (tp (ix1 j))))) (pairOf d) (memberOf d)
    = rot x cs sn b hh (rowOf (wrapWord (tp (ix1 j)))) (pairOf d) (memberOf d)
  rw [wrap_clip, rowOf_clip_of_nonneg (tp (ix1 j)) (h j)]

end Cert.Rope.KValue

end
-- ==== Proof.RefSide.lean ====
/-
  The reference program computes the function G.

  The reference splits each row of 64 lanes into 32 pairs, rotates pair k of row (b, h, r) by the angle whose cosine
  and sine sit at (r, k) of the two tables, joins the two members back into a row of 64 lanes, and then reads whole
  rows of the rotated array at the rows the position words name, a negative word first moved up by 8192.
-/
import proofs.«416574_j2413771620710_4_alg».proof.Proof.Gen.ReferenceIdeal.Read
import proofs.«416574_j2413771620710_4_alg».proof.Proof.Spec
import proofs.«416574_j2413771620710_4_alg».proof.Proof.LibGather4
import Idealize.ShloMosaic.Lib.Pipeline.Value
import Idealize.ShloMosaic.Lib.ValueIdx

noncomputable section

namespace Cert.Rope.RefSide

open Idealize.ShloMosaic Idealize.ShloMosaic.ValueIdx Idealize.ShloMosaic.RowOps Cert.ReferenceIdeal Cert.ReferenceIdeal.Gen Cert.ReferenceIdeal.Read Cert.Rope

/-- Member 0 of pair k of row (b, h, r) of x, as the reference reads it: reshape, slice, reshape. -/
theorem x_even (x : FVec Ideal S4x16x8192x64 .f32) (b : Fin 4) (h : Fin 16) (r : Fin 8192) (k : Fin 32) :
    val_main_v2 (F := Ideal) x (ix4 b h r k) = x (ix4 b h r (lane k 0)) := by
  refine (val_main_v2_apply (F := Ideal) x _).trans ?_
  have e2 : idx_main_v2 (ix4 b h r k) = ix5 b h r k (0 : Fin 1) := by
    funext a
    apply Fin.ext
    have hb := b.isLt; have hh := h.isLt; have hr := r.isLt; have hk := k.isLt
    match a with
    | ⟨0, _⟩ => show (((b.val * 16 + h.val) * 8192 + r.val) * 32 + k.val) / 4194304 = b.val; omega
    | ⟨1, _⟩ => show (((b.val * 16 + h.val) * 8192 + r.val) * 32 + k.val) / 262144 % 16 = h.val; omega
    | ⟨2, _⟩ => show (((b.val * 16 + h.val) * 8192 + r.val) * 32 + k.val) / 32 % 8192 = r.val; omega
    | ⟨3, _⟩ => show (((b.val * 16 + h.val) * 8192 + r.val) * 32 + k.val) / 1 % 32 = k.val; omega
    | ⟨4, _⟩ => rfl
  rw [e2]
  refine (val_main_v1_apply (F := Ideal) x _).trans ?_
  have e1 : idx_main_v1 (ix5 b h r k (0 : Fin 1)) = ix5 b h r k (0 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [e1]
  refine (val_main_v0_apply (F := Ideal) x _).trans ?_
  refine congrArg x ?_
  funext a
  apply Fin.ext
  have hb := b.isLt; have hh := h.isLt; have hr := r.isLt; have hk := k.isLt
  match a with
  | ⟨0, _⟩ => show ((((b.val * 16 + h.val) * 8192 + r.val) * 32 + k.val) * 2 + 0) / 8388608 = b.val; omega
  | ⟨1, _⟩ => show ((((b.val * 16 + h.val) * 8192 + r.val) * 32 + k.val) * 2 + 0) / 524288 % 16 = h.val; omega
  | ⟨2, _⟩ => show ((((b.val * 16 + h.val) * 8192 + r.val) * 32 + k.val) * 2 + 0) / 64 % 8192 = r.val; omega
  | ⟨3, _⟩ => show ((((b.val * 16 + h.val) * 8192 + r.val) * 32 + k.val) * 2 + 0) % 64 = 2 * k.val + 0; omega

/-- Member 1 of pair k of row (b, h, r) of x, as the reference reads it. -/
theorem x_odd (x : FVec Ideal S4x16x8192x64 .f32) (b : Fin 4) (h : Fin 16) (r : Fin 8192) (k : Fin 32) :
    val_main_v4 (F := Ideal) x (ix4 b h r k) = x (ix4 b h r (lane k 1)) := by
  refine (val_main_v4_apply (F := Ideal) x _).trans ?_
  have e2 : idx_main_v4 (ix4 b h r k) = ix5 b h r k (0 : Fin 1) := by
    funext a
    apply Fin.ext
    have hb := b.isLt; have hh := h.isLt; have hr := r.isLt; have hk := k.isLt
    match a with
    | ⟨0, _⟩ => show (((b.val * 16 + h.val) * 8192 + r.val) * 32 + k.val) / 4194304 = b.val; omega
    | ⟨1, _⟩ => show (((b.val * 16 + h.val) * 8192 + r.val) * 32 + k.val) / 262144 % 16 = h.val; omega
    | ⟨2, _⟩ => show (((b.val * 16 + h.val) * 8192 + r.val) * 32 + k.val) / 32 % 8192 = r.val; omega
    | ⟨3, _⟩ => show (((b.val * 16 + h.val) * 8192 + r.val) * 32 + k.val) / 1 % 32 = k.val; omega
    | ⟨4, _⟩ => rfl
  rw [e2]
  refine (val_main_v3_apply (F := Ideal) x _).trans ?_
  have e1 : idx_main_v3 (ix5 b h r k (0 : Fin 1)) = ix5 b h r k (1 : Fin 2) := by
    funext a
    apply Fin.ext
    match a with
    | ⟨0, _⟩ => rfl
    | ⟨1, _⟩ => rfl
    | ⟨2, _⟩ => rfl
    | ⟨3, _⟩ => rfl
    | ⟨4, _⟩ => rfl
  rw [e1]
  refine (val_main_v0_apply (F := Ideal) x _).trans ?_
  refine congrArg x ?_
  funext a
  apply Fin.ext
  have hb := b.isLt; have hh := h.isLt; have hr := r.isLt; have hk := k.isLt
  match a with
  | ⟨0, _⟩ => show ((((b.val * 16 + h.val) * 8192 + r.val) * 32 + k.val) * 2 + 1) / 8388608 = b.val; omega
  | ⟨1, _⟩ => show ((((b.val * 16 + h.val) * 8192 + r.val) * 32 + k.val) * 2 + 1) / 524288 % 16 = h.val; omega
  | ⟨2, _⟩ => show ((((b.val * 16 + h.val) * 8192 + r.val) * 32 + k.val) * 2 + 1) / 64 % 8192 = r.val; omega
  | ⟨3, _⟩ => show ((((b.val * 16 + h.val) * 8192 + r.val) * 32 + k.val) * 2 + 1) % 64 = 2 * k.val + 1; omega

/-- A table broadcast over the batch and head axes, read at (b, h, r, k): the table at (r, k). -/
theorem tab6 (t : FVec Ideal S8192x32 .f32) (b : Fin 4) (h : Fin 16) (r : Fin 8192) (k : Fin 32) :
    val_main_v6 (F := Ideal) t (ix4 b h r k) = t (ix2 r k) := by
  refine (val_main_v6_apply (F := Ideal) t _).trans ?_
  refine (val_main_v5_apply (F := Ideal) t _).trans ?_
  refine congrArg t ?_
  funext a
  apply Fin.ext
  match a with
  | ⟨0, _⟩ => rfl
  | ⟨1, _⟩ => rfl

/-- The same for the second broadcast of a table. -/
theorem tab9 (t : FVec Ideal S8192x32 .f32) (b : Fin 4) (h : Fin 16) (r : Fin 8192) (k : Fin 32) :
    val_main_v9 (F := Ideal) t (ix4 b h r k) = t (ix2 r k) := by
  refine (val_main_v9_apply (F := Ideal) t _).trans ?_
  refine (val_main_v8_apply (F := Ideal) t _).trans ?_
  refine congrArg t ?_
  funext a
  apply Fin.ext
  match a with
  | ⟨0, _⟩ => rfl
  | ⟨1, _⟩ => rfl

/-- The same for the third broadcast of a table. -/
theorem tab13 (t : FVec Ideal S8192x32 .f32) (b : Fin 4) (h : Fin 16) (r : Fin 8192) (k : Fin 32) :
    val_main_v13 (F := Ideal) t (ix4 b h r k) = t (ix2 r k) := by
  refine (val_main_v13_apply (F := Ideal) t _).trans ?_
  refine (val_main_v12_apply (F := Ideal) t _).trans ?_
  refine congrArg t ?_
  funext a
  apply Fin.ext
  match a with
  | ⟨0, _⟩ => rfl
  | ⟨1, _⟩ => rfl

/-- The same for the fourth broadcast of a table. -/
theorem tab16 (t : FVec Ideal S8192x32 .f32) (b : Fin 4) (h : Fin 16) (r : Fin 8192) (k : Fin 32) :
    val_main_v16 (F := Ideal) t (ix4 b h r k) = t (ix2 r k) := by
  refine (val_main_v16_apply (F := Ideal) t _).trans ?_
  refine (val_main_v15_apply (F := Ideal) t _).trans ?_
  refine congrArg t ?_
  funext a
  apply Fin.ext
  match a with
  | ⟨0, _⟩ => rfl
  | ⟨1, _⟩ => rfl

/-- The two members of the rotated pair before they are joined. -/
theorem first_apply (x : FVec Ideal S4x16x8192x64 .f32) (cs sn : FVec Ideal S8192x32 .f32) (b : Fin 4) (h : Fin 16) (r : Fin 8192) (k : Fin 32) :
    val_main_v11 (F := Ideal) x cs sn (ix4 b h r k)
      = x (ix4 b h r (lane k 0)) * cs (ix2 r k) - x (ix4 b h r (lane k 1)) * sn (ix2 r k) := by
  show val_main_v2 (F := Ideal) x (ix4 b h r k) * val_main_v6 (F := Ideal) cs (ix4 b h r k)
      - val_main_v4 (F := Ideal) x (ix4 b h r k) * val_main_v9 (F := Ideal) sn (ix4 b h r k) = _
  rw [x_even, x_odd, tab6, tab9]

theorem second_apply (x : FVec Ideal S4x16x8192x64 .f32) (cs sn : FVec Ideal S8192x32 .f32) (b : Fin 4) (h : Fin 16) (r : Fin 8192) (k : Fin 32) :
    val_main_v18 (F := Ideal) x cs sn (ix4 b h r k)
      = x (ix4 b h r (lane k 0)) * sn (ix2 r k) + x (ix4 b h r (lane k 1)) * cs (ix2 r k) := by
  show val_main_v2 (F := Ideal) x (ix4 b h r k) * val_main_v13 (F := Ideal) sn (ix4 b h r k)
      + val_main_v4 (F := Ideal) x (ix4 b h r k) * val_main_v16 (F := Ideal) cs (ix4 b h r k) = _
  rw [x_even, x_odd, tab13, tab16]

/-- The joined array at member 0 of a pair is the first piece, at member 1 the second. -/
theorem joined_zero (x : FVec Ideal S4x16x8192x64 .f32) (cs sn : FVec Ideal S8192x32 .f32) (b : Fin 4) (h : Fin 16) (r : Fin 8192) (k : Fin 32) :
    val_main_v21 (F := Ideal) x cs sn (ix5 b h r k (0 : Fin 2)) = val_main_v11 (F := Ideal) x cs sn (ix4 b h r k) := by
  unfold val_main_v21
  refine (concatenate_pair_apply_left (t := S4x16x8192x32x2) (s₁ := S4x16x8192x32x1) (s₂ := S4x16x8192x32x1) (4 : Fin 5) _ _ concatenates_S4x16x8192x32x1_S4x16x8192x32x1_S4x16x8192x32x2_d4
    (ix5 b h r k (0 : Fin 2)) rfl (ix5 b h r k (0 : Fin 1)) (fun a => ?_)).trans ?_
  · match a with
    | ⟨0, _⟩ => rfl
    | ⟨1, _⟩ => rfl
    | ⟨2, _⟩ => rfl
    | ⟨3, _⟩ => rfl
    | ⟨4, _⟩ => rfl
  · refine (val_main_v19_apply (F := Ideal) x cs sn _).trans ?_
    refine congrArg (val_main_v11 (F := Ideal) x cs sn) ?_
    funext a
    apply Fin.ext
    match a with
    | ⟨0, _⟩ => rfl
    | ⟨1, _⟩ => rfl
    | ⟨2, _⟩ => rfl
    | ⟨3, _⟩ => rfl

theorem joined_one (x : FVec Ideal S4x16x8192x64 .f32) (cs sn : FVec Ideal S8192x32 .f32) (b : Fin 4) (h : Fin 16) (r : Fin 8192) (k : Fin 32) :
    val_main_v21 (F := Ideal) x cs sn (ix5 b h r k (1 : Fin 2)) = val_main_v18 (F := Ideal) x cs sn (ix4 b h r k) := by
  unfold val_main_v21
  refine (concatenate_pair_apply_right (t := S4x16x8192x32x2) (s₁ := S4x16x8192x32x1) (s₂ := S4x16x8192x32x1) (4 : Fin 5) _ _ concatenates_S4x16x8192x32x1_S4x16x8192x32x1_S4x16x8192x32x2_d4
    (ix5 b h r k (1 : Fin 2)) rfl rfl (ix5 b h r k (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · refine (val_main_v20_apply (F := Ideal) x cs sn _).trans ?_
    refine congrArg (val_main_v18 (F := Ideal) x cs sn) ?_
    funext a
    apply Fin.ext
    match a with
    | ⟨0, _⟩ => rfl
    | ⟨1, _⟩ => rfl
    | ⟨2, _⟩ => rfl
    | ⟨3, _⟩ => rfl

/-- The rotated array at lane 2k + e of row (b, h, r) is member e of the rotated pair k of that row. -/
theorem rotated_apply (x : FVec Ideal S4x16x8192x64 .f32) (cs sn : FVec Ideal S8192x32 .f32) (b : Fin 4) (h : Fin 16) (r : Fin 8192) (k : Fin 32) (e : Fin 2) :
    val_main_v22 (F := Ideal) x cs sn (ix4 b h r (lane k e)) = rot x cs sn b h r k e := by
  refine (val_main_v22_apply (F := Ideal) x cs sn _).trans ?_
  have e22 : idx_main_v22 (ix4 b h r (lane k e)) = ix5 b h r k e := by
    funext a
    apply Fin.ext
    have hb := b.isLt; have hh := h.isLt; have hr := r.isLt; have hk := k.isLt; have he := e.isLt
    match a with
    | ⟨0, _⟩ => show (((b.val * 16 + h.val) * 8192 + r.val) * 64 + (2 * k.val + e.val)) / 8388608 = b.val; omega
    | ⟨1, _⟩ => show (((b.val * 16 + h.val) * 8192 + r.val) * 64 + (2 * k.val + e.val)) / 524288 % 16 = h.val; omega
    | ⟨2, _⟩ => show (((b.val * 16 + h.val) * 8192 + r.val) * 64 + (2 * k.val + e.val)) / 64 % 8192 = r.val; omega
    | ⟨3, _⟩ => show (((b.val * 16 + h.val) * 8192 + r.val) * 64 + (2 * k.val + e.val)) / 2 % 32 = k.val; omega
    | ⟨4, _⟩ => show (((b.val * 16 + h.val) * 8192 + r.val) * 64 + (2 * k.val + e.val)) % 2 = e.val; omega
  rw [e22]
  unfold rot
  match e with
  | ⟨0, _⟩ =>
    rw [if_pos rfl]
    exact (joined_zero x cs sn b h r k).trans (first_apply x cs sn b h r k)
  | ⟨1, _⟩ =>
    rw [if_neg Nat.one_ne_zero]
    exact (joined_one x cs sn b h r k).trans (second_apply x cs sn b h r k)

/-- The index word the gather reads for result row j: position word j, moved up by 8192 if it is negative. -/
theorem word_apply (tp : IVec S8192 32) (j : Fin 8192) :
    val_main_v28 (F := Ideal) tp (ix2 j (0 : Fin 1)) = wrapWord (tp (ix1 j)) := by
  refine (val_main_v28_apply (F := Ideal) tp _).trans ?_
  have e28 : idx_main_v28 (ix2 j (0 : Fin 1)) = ix1 j := by
    funext a
    apply Fin.ext
    match a with
    | ⟨0, _⟩ => rfl
  rw [e28]
  show Scalar.select (IntOp.cmpi .slt (tp (ix1 j)) (val_main_v23 (F := Ideal) (ix1 j)))
      (IntOp.addi (tp (ix1 j)) (val_main_v25 (F := Ideal) (ix1 j))) (tp (ix1 j)) = _
  have e23 : val_main_v23 (F := Ideal) (ix1 j) = 0#32 := val_main_v23_apply (F := Ideal) _
  have e25 : val_main_v25 (F := Ideal) (ix1 j) = 8192#32 := val_main_v25_apply (F := Ideal) _
  rw [e23, e25]
  rfl

/-- The result at (b, h, j, w) is the rotated array at (b, h, the row position word j names, w). -/
theorem gathered_apply (x : FVec Ideal S4x16x8192x64 .f32) (cs sn : FVec Ideal S8192x32 .f32) (tp : IVec S8192 32)
    (b : Fin 4) (h : Fin 16) (j : Fin 8192) (w : Fin 64) :
    val_main_v29 (F := Ideal) x cs sn tp (ix4 b h j w)
      = val_main_v22 (F := Ideal) x cs sn (ix4 b h (rowOf (wrapWord (tp (ix1 j)))) w) := by
  unfold val_main_v29
  refine (gather_axis2_apply (B := 4) (H := 16) (N := 8192) (E := 8192) (W := 64) (by decide)
    gather_S4x16x8192x64_S8192x1_S4x16x8192x64_013_2_n_n_2_1_416164 rfl rfl rfl rfl rfl rfl rfl
    (val_main_v22 (F := Ideal) x cs sn) (val_main_v28 (F := Ideal) tp) b h j w).trans ?_
  rw [word_apply]
  rfl

/-- The reference program's result is G. -/
theorem ref_eq (x : FVec Ideal S4x16x8192x64 .f32) (cs sn : FVec Ideal S8192x32 .f32) (tp : IVec S8192 32) :
    val_main_v29 (F := Ideal) x cs sn tp = G x cs sn tp := by
  funext i
  refine (congrArg (val_main_v29 (F := Ideal) x cs sn tp) (eq_ix4 i)).trans ?_
  refine (gathered_apply x cs sn tp (i 0) (i 1) (i 2) (i 3)).trans ?_
  refine (congrArg (fun d => val_main_v22 (F := Ideal) x cs sn (ix4 (i 0) (i 1) (rowOf (wrapWord (tp (ix1 (i 2))))) d))
    (lane_pairOf_memberOf (i 3)).symm).trans ?_
  exact rotated_apply x cs sn (i 0) (i 1) (rowOf (wrapWord (tp (ix1 (i 2))))) (pairOf (i 3)) (memberOf (i 3))

end Cert.Rope.RefSide

end
-- ==== Proof.PreDecode.lean ====
/-
  The precondition read back. The printed predicate is a conjunction whose last conjunct is the "and" over all 8192
  position words of the test "word ≥ 0, signed". The predicate being 1 makes that conjunct 1, hence every one of the
  tests 1, hence every position word nonnegative read signed.
-/
import proofs.«416574_j2413771620710_4_alg».proof.Pre_finite_inputs
import proofs.«416574_j2413771620710_4_alg».proof.Proof.Spec
import Idealize.ShloMosaic.PureOps.Ideal
import Idealize.ShloMosaic.Lib.ReduceAll
import Idealize.ShloMosaic.Lib.ValueIdx

noncomputable section

namespace Cert.Rope.PreDecode

open Idealize.ShloMosaic Idealize.ShloMosaic.ValueIdx Cert.Rope

/-- A shape of rank 0 has one index. -/
instance : Subsingleton Cert.Pre_finite_inputs.S_.Idx := ⟨fun a b => funext fun d => d.elim0⟩

theorem nonneg_of_pre [Cert.Pre_finite_inputs.Facts]
    (x : FVec Ideal Cert.Pre_finite_inputs.S4x16x8192x64 .f32) (cs sn : FVec Ideal Cert.Pre_finite_inputs.S8192x32 .f32)
    (tp : IVec Cert.Pre_finite_inputs.S8192 32)
    (h : Cert.Pre_finite_inputs.fn (F := Ideal) x cs sn tp = fun _ => 1#1) (j : Fin 8192) :
    0 ≤ (tp (ix1 j)).toInt := by
  have h0 := congrFun h ValueIdx.ix0
  dsimp only [Cert.Pre_finite_inputs.fn, Cert.Pre_finite_inputs.fn_part1] at h0
  have h1 : Host.reduce IntOp.andi
      (cmpi CmpIPredicate.sge tp
        (broadcastInDim Cert.Pre_finite_inputs.S8192 ![] Cert.Pre_finite_inputs.Facts.bcast_S_S8192
          (constantI Cert.Pre_finite_inputs.S_ 32 0#32)))
      (constantI Cert.Pre_finite_inputs.S_ 1 1#1) Cert.Pre_finite_inputs.Facts.reducesTo_S8192_S_d0
      Cert.Pre_finite_inputs.Facts.h_S_ ix0 = 1#1 := (IntOp.andi_eq_one.1 h0).2
  have h2 := Host.reduce_andi_all _ _ _ _ _ h1 (ix1 j)
  have h3 : IntOp.cmpi .sge (tp (ix1 j)) 0#32 = 1#1 := h2
  rw [IntOp.cmpi_sge] at h3
  exact h3

end Cert.Rope.PreDecode

end
-- ==== Proof.lean ====
/-
  Rotary position embedding followed by a read of rows: the kernel against its reference, over the extended reals.

  Both programs rotate each pair (x[2k], x[2k+1]) of a row of x by the angle whose cosine and sine sit at the same row
  and at column k of two tables, (u, v) ↦ (u·cos − v·sin, u·sin + v·cos), and output row j is the rotated row that position
  word j names. The reference rotates the whole array and then reads rows; the kernel reads rows of x and of the two
  tables first and rotates what it read, block by block over a 4 × 4 × 32 grid. The rotation acts row by row, so the two
  orders give the same array: no law of the extended reals is used, the two sides are the same expression in the same
  entries, and finiteness of the inputs plays no part.

  What differs is how a position word names a row. Both add 8192 to a negative word and clamp the row read into
  [0, 8191]; the kernel clips the word into [0, 8191] before that. A word in [−8191, −1] so names row 0 for the kernel
  and row word + 8192 for the reference, and every other word names one row for both. The precondition asks every
  position word to be nonnegative, and there the two programs agree at every entry.

  The pieces: the rotation and the words (Spec, Words); the precondition read back to "every word is nonnegative"
  (PreDecode); the reference's result as the function G (RefSide); the kernel's stored value at a lane (KPay), its blocks
  assembled into the array (KFinal), the arrays it stages as rows of the arguments (KHost), and its result as G (KValue).
  The frames of the two kernel programs are the generated ones; the reference's frame is its generated run with the
  result dropped; the idealization rewrote nothing, so there is nothing to preserve.
-/
import proofs.«416574_j2413771620710_4_alg».proof.Defs
import proofs.«416574_j2413771620710_4_alg».proof.Proof.Gen.Kernel
import proofs.«416574_j2413771620710_4_alg».proof.Proof.Gen.Kernel.Skeleton
import proofs.«416574_j2413771620710_4_alg».proof.Proof.Gen.Kernel.Launch
import proofs.«416574_j2413771620710_4_alg».proof.Proof.Gen.Kernel.Points
import proofs.«416574_j2413771620710_4_alg».proof.Proof.Gen.Kernel.Frame
import proofs.«416574_j2413771620710_4_alg».proof.Proof.Gen.KernelIdeal
import proofs.«416574_j2413771620710_4_alg».proof.Proof.Gen.KernelIdeal.Skeleton
import proofs.«416574_j2413771620710_4_alg».proof.Proof.Gen.KernelIdeal.Launch
import proofs.«416574_j2413771620710_4_alg».proof.Proof.Gen.KernelIdeal.Points
import proofs.«416574_j2413771620710_4_alg».proof.Proof.Gen.KernelIdeal.Frame
import proofs.«416574_j2413771620710_4_alg».proof.Proof.Gen.ReferenceIdeal
import proofs.«416574_j2413771620710_4_alg».proof.Proof.Gen.Pre_finite_inputs
import proofs.«416574_j2413771620710_4_alg».proof.Proof.Gen.KernelIdeal.Value
import proofs.«416574_j2413771620710_4_alg».proof.Proof.Gen.ReferenceIdeal.Run
import proofs.«416574_j2413771620710_4_alg».proof.Proof.Gen.ReferenceIdeal.Read
import proofs.«416574_j2413771620710_4_alg».proof.Proof.KValue
import proofs.«416574_j2413771620710_4_alg».proof.Proof.RefSide
import proofs.«416574_j2413771620710_4_alg».proof.Proof.PreDecode
import Idealize.ShloMosaic.Adequacy
import Idealize.ShloMosaic.Init

noncomputable section

namespace Cert.Proof

open Idealize.ShloMosaic Idealize.ShloMosaic.ValueIdx Idealize.SL.Sem Cert.Rope

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at G of the arguments: the kernel's blocks assemble to the rotation of
    the rows the clipped words name, which under the precondition are the rows the words name; the reference's run is
    G by reading it operation by operation. -/
theorem algebraic : Cert.algebraic_KernelIdeal_ReferenceIdeal := by
  intro m ρ m' ρ' hpre hagree
  have hnn : ∀ (c : Dev Cert.KernelIdeal.nD) (j : Fin 8192),
      0 ≤ ((m ((c.tc : Thread Cert.KernelIdeal.nD Cert.KernelIdeal.τ).loc Cert.KernelIdeal.main_arg3) :
        Cert.KernelIdeal.S8192.Idx → BitVec 32) (ix1 j)).toInt :=
    fun c j => PreDecode.nonneg_of_pre _ _ _ _ (hpre c) j
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((KValue.result_clip m c).trans (KValue.Gclip_eq_G _ _ _ _ (hnn c))), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, RefSide.ref_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
